-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x32 : Shape := ⟨2, ![800000, 32]⟩
abbrev S2x800000 : Shape := ⟨2, ![2, 800000]⟩
abbrev S128x128 : Shape := ⟨2, ![128, 128]⟩
abbrev S256x128 : Shape := ⟨2, ![256, 128]⟩
abbrev S32x128 : Shape := ⟨2, ![32, 128]⟩
abbrev S128 : Shape := ⟨1, ![128]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_arg2 : IVec S2x800000 32) (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : IVec S1x800000 32 := (extractStridedSlice S1x800000 ![1, 0] · slices_S2x800000_S1x800000_1_0) main_arg2
  let main_v40 : IVec S800000 32 := shapeCast S800000 main_v39 shapeCasts_S1x800000_S800000
  let main_c_14 : IVec S_ 32 := constantI S_ 32 4294917296#32
  let main_v41 : IVec S800000 32 := broadcastInDim S800000 ![] bcast_S_S800000 main_c_14
  let main_v42 : IVec S800000 1 := cmpi .sge main_v40 main_v41
  let main_v43 : IVec S1x800000 32 := (extractStridedSlice S1x800000 ![1, 0] · slices_S2x800000_S1x800000_1_0) main_arg2
  let main_v44 : IVec S800000 32 := shapeCast S800000 main_v43 shapeCasts_S1x800000_S800000
  let main_c_15 : IVec S_ 32 := constantI S_ 32 50000#32
  let main_v45 : IVec S800000 32 := broadcastInDim S800000 ![] bcast_S_S800000 main_c_15
  let main_v46 : IVec S800000 1 := cmpi .slt main_v44 main_v45
  let main_v47 : IVec S800000 1 := andi main_v42 main_v46
  let main_c_16 : IVec S_ 1 := constantI S_ 1 1#1
  let main_v48 : IVec S_ 1 := (fun x v => Host.reduce IntOp.andi x v reducesTo_S800000_S_d0 h_S_) main_v47 main_c_16
  let main_v49 : IVec S_ 1 := andi main_v38 main_v48
  main_v49

def fn_part1 {F : FTy → Type} [FloatOps F] (main_arg2 : IVec S2x800000 32) (main_arg5 : FVec F S256x128 .f32) (main_arg6 : FVec F S32x128 .f32) (main_arg7 : FVec F S128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S32x128 .f32 := Host.absf main_arg6
  let main_cst_8 : FVec F S_ .f32 := constant S_ .f32 0x7F800000#32
  let main_v25 : FVec F S32x128 .f32 := broadcastInDim S32x128 ![] bcast_S_S32x128 main_cst_8
  let main_v26 : IVec S32x128 1 := cmpf .olt main_v24 main_v25
  let main_c_9 : IVec S_ 1 := constantI S_ 1 1#1
  let main_v27 : IVec S_ 1 := (fun x v => Host.reduce IntOp.andi x v reducesTo_S32x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg8 main_v33

def fn {F : FTy → Type} [FloatOps F] (main_arg0 : FVec F S50000x128 .f32) (main_arg1 : FVec F S800000x32 .f32) (main_arg2 : IVec S2x800000 32) (main_arg3 : FVec F S128x128 .f32) (main_arg4 : FVec F S128x128 .f32) (main_arg5 : FVec F S256x128 .f32) (main_arg6 : FVec F S32x128 .f32) (main_arg7 : FVec F S128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x32 .f32 := Host.absf main_arg1
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg5 main_arg6 main_arg7 main_arg8 main_v13 main_v16
-- ==== Kernel.lean ====
abbrev S50000x128 : Shape := ⟨2, ![50000, 128]⟩
abbrev S800000x32 : Shape := ⟨2, ![800000, 32]⟩
abbrev S2x800000 : Shape := ⟨2, ![2, 800000]⟩
abbrev S128x128 : Shape := ⟨2, ![128, 128]⟩
abbrev S256x128 : Shape := ⟨2, ![256, 128]⟩
abbrev S32x128 : Shape := ⟨2, ![32, 128]⟩
abbrev S128 : Shape := ⟨1, ![128]⟩
abbrev S1x800000 : Shape := ⟨2, ![1, 800000]⟩
abbrev S800000 : Shape := ⟨1, ![800000]⟩
abbrev S5000x128 : Shape := ⟨2, ![5000, 128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S8000x32 : Shape := ⟨2, ![8000, 32]⟩
abbrev S8000x128 : Shape := ⟨2, ![8000, 128]⟩
abbrev S5000 : Shape := ⟨1, ![5000]⟩
abbrev S5000x1 : Shape := ⟨2, ![5000, 1]⟩
abbrev S1x128 : Shape := ⟨2, ![1, 128]⟩

abbrev nBuf : Space → Nat
  | .hbm => 46
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S800000x32, .f32⟩
  | .hbm, ⟨2, _⟩ => ⟨S2x800000, .i32⟩
  | .hbm, ⟨3, _⟩ => ⟨S128x128, .f32⟩
  | .hbm, ⟨4, _⟩ => ⟨S128x128, .f32⟩
  | .hbm, ⟨5, _⟩ => ⟨S256x128, .f32⟩
  | .hbm, ⟨6, _⟩ => ⟨S32x128, .f32⟩
  | .hbm, ⟨7, _⟩ => ⟨S128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000x128, .f32⟩
  | .hbm, ⟨14, _⟩ => ⟨S50000x128, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S1, .i32⟩
  | .hbm, ⟨24, _⟩ => ⟨S_, .i32⟩
  | .hbm, ⟨25, _⟩ => ⟨S800000x1, .i32⟩
  | .hbm, ⟨26, _⟩ => ⟨S800000x1, .i1⟩
  | .hbm, ⟨27, _⟩ => ⟨S1x1, .i32⟩
  | .hbm, ⟨28, _⟩ => ⟨S800000x1, .i32⟩
  | .hbm, ⟨29, _⟩ => ⟨S800000x1, .i1⟩
  | .hbm, ⟨30, _⟩ => ⟨S800000x1, .i1⟩
  | .hbm, ⟨31, _⟩ => ⟨S_, .i1⟩
  | .hbm, ⟨32, _⟩ => ⟨S800000, .i1⟩
  | .hbm, ⟨33, _⟩ => ⟨S800000x128, .f32⟩
  | .hbm, ⟨34, _⟩ => ⟨S800000x128, .i1⟩
  | .hbm, ⟨35, _⟩ => ⟨S_, .f32⟩
  | .hbm, ⟨36, _⟩ => ⟨S800000x128, .f32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S128x128, .f32⟩
  | .hbm, ⟨44, _⟩ => ⟨S128x128, .f32⟩
  | .hbm, ⟨45, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S8000x32, .f32⟩
  | .local _ .vmem, ⟨9, _⟩ => ⟨S8000x32, .f32⟩
  | .local _ .vmem, ⟨10, _⟩ => ⟨S8000x128, .f32⟩
  | .local _ .vmem, ⟨11, _⟩ => ⟨S8000x128, .f32⟩
  | .local _ .vmem, ⟨12, _⟩ => ⟨S32x128, .f32⟩
  | .local _ .vmem, ⟨13, _⟩ => ⟨S8000x128, .f32⟩
  | .local _ .vmem, ⟨14, _⟩ => ⟨S8000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S128x128, .f32⟩
  | .local _ .vmem, ⟨21, _⟩ => ⟨S128, .f32⟩
  | .local _ .vmem, ⟨22, _⟩ => ⟨S128, .f32⟩
  | .local _ .vmem, ⟨23, _⟩ => ⟨S5000x128, .f32⟩
  | .local _ .vmem, ⟨24, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v5 : Ref sig .tc := ⟨.hbm, 37, rfl⟩
abbrev main_v6 : Ref sig .tc := ⟨.hbm, 38, rfl⟩
abbrev main_cst : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg6_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem6_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  inb_S8000x32_S8000x32_0_0 : ∀ a, (![0, 0] : Fin 2 → Nat) a + S8000x32.size a ≤ S8000x32.size a
  h_S8000x32 : 0 < S8000x32.numel
  inb_S32x128_S32x128_0_0 : ∀ a, (![0, 0] : Fin 2 → Nat) a + S32x128.size a ≤ S32x128.size a
  h_S32x128 : 0 < S32x128.numel
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  shapeCasts_S5000x128_S5000x128 : S5000x128.ShapeCasts S5000x128
  shapeCasts_S128x128_S128x128 : S128x128.ShapeCasts S128x128
  reduces_S5000x128_S5000 : S5000x128.Reduces [1] S5000
  shapeCasts_S5000_S5000x1 : S5000.ShapeCasts S5000x1
  broadcasts_S5000x1_S5000x128 : S5000x1.Broadcasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  dot_S8000x32_S32x128_S8000x128_1_0_0_1_n_n_wf : DotDims.WF S8000x32 S32x128 S8000x128 [1] [0] [0] [1] [] []
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x32.size a ≤ S800000x32.size a
  hwx1_0 : ∀ i : grid1.Coords, EltTy.bits .f32 = 32 ∨ (Rect.block (s := S800000x32) S8000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x128.size a ≤ S800000x128.size a
  hwx1_1 : ∀ i : grid1.Coords, EltTy.bits .f32 = 32 ∨ (Rect.block (s := S800000x128) S8000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x128.size a ≤ S32x128.size a
  hwx1_2 : ∀ i : grid1.Coords, EltTy.bits .f32 = 32 ∨ (Rect.block (s := S32x128) S32x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S800000x128.size a
  hwx1_3 : ∀ i : grid1.Coords, EltTy.bits .f32 = 32 ∨ (Rect.block (s := S800000x128) S8000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x32_S32x128_S8000x128_1_0_0_1_n_n : DotDims S8000x32 S32x128 S8000x128 where
  lhsContracting := [1]
  rhsContracting := [0]
  lhsNonContracting := [0]
  rhsNonContracting := [1]
  lhsBatch := []
  rhsBatch := []
  wf := dot_S8000x32_S32x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S8000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S8000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S32x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v4_1) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v12) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000x32 : Shape := ⟨2, ![800000, 32]⟩
abbrev S2x800000 : Shape := ⟨2, ![2, 800000]⟩
abbrev S128x128 : Shape := ⟨2, ![128, 128]⟩
abbrev S256x128 : Shape := ⟨2, ![256, 128]⟩
abbrev S32x128 : Shape := ⟨2, ![32, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S50000 : Shape := ⟨1, ![50000]⟩
abbrev S50000x1 : Shape := ⟨2, ![50000, 1]⟩
abbrev S1x128 : Shape := ⟨2, ![1, 128]⟩

abbrev nBuf : Space → Nat
  | .hbm => 61
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x32, .f32⟩
  | .hbm, ⟨2, _⟩ => ⟨S2x800000, .i32⟩
  | .hbm, ⟨3, _⟩ => ⟨S128x128, .f32⟩
  | .hbm, ⟨4, _⟩ => ⟨S128x128, .f32⟩
  | .hbm, ⟨5, _⟩ => ⟨S256x128, .f32⟩
  | .hbm, ⟨6, _⟩ => ⟨S32x128, .f32⟩
  | .hbm, ⟨7, _⟩ => ⟨S128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000x128, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S800000x128, .f32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S50000x128, .f32⟩
  | .hbm, ⟨30, _⟩ => ⟨S50000x256, .f32⟩
  | .hbm, ⟨31, _⟩ => ⟨S50000x128, .f32⟩
  | .hbm, ⟨32, _⟩ => ⟨S_, .f32⟩
  | .hbm, ⟨33, _⟩ => ⟨S50000, .f32⟩
  | .hbm, ⟨34, _⟩ => ⟨S50000x1, .f32⟩
  | .hbm, ⟨35, _⟩ => ⟨S_, .f32⟩
  | .hbm, ⟨36, _⟩ => ⟨S50000x1, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S_, .f32⟩
  | .hbm, ⟨42, _⟩ => ⟨S50000, .f32⟩
  | .hbm, ⟨43, _⟩ => ⟨S50000x1, .f32⟩
  | .hbm, ⟨44, _⟩ => ⟨S_, .f32⟩
  | .hbm, ⟨45, _⟩ => ⟨S50000x1, .f32⟩
  | .hbm, ⟨46, _⟩ => ⟨S50000x1, .f32⟩
  | .hbm, ⟨47, _⟩ => ⟨S50000x128, .f32⟩
  | .hbm, ⟨48, _⟩ => ⟨S50000x128, .f32⟩
  | .hbm, ⟨49, _⟩ => ⟨S_, .f32⟩
  | .hbm, ⟨50, _⟩ => ⟨S50000x1, .f32⟩
  | .hbm, ⟨51, _⟩ => ⟨S50000x1, .f32⟩
  | .hbm, ⟨52, _⟩ => ⟨S50000x1, .f32⟩
  | .hbm, ⟨53, _⟩ => ⟨S50000x128, .f32⟩
  | .hbm, ⟨54, _⟩ => ⟨S50000x128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  concatenates_S50000x128_S50000x128_S50000x256_d1 : Shape.Concatenates [S50000x128, S50000x128] S50000x256 1
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  dot_S800000x32_S32x128_S800000x128_1_0_0_1_n_n_wf : DotDims.WF S800000x32 S32x128 S800000x128 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x32_S32x128_S800000x128_1_0_0_1_n_n : DotDims S800000x32 S32x128 S800000x128 where
  lhsContracting := [1]
  rhsContracting := [0]
  lhsNonContracting := [0]
  rhsNonContracting := [1]
  lhsBatch := []
  rhsBatch := []
  wf := dot_S800000x32_S32x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
/-
  The mathematics both programs compute, over the extended reals.

  Every node has a feature row of 128 entries.  A row `h` is layer-normalised: with `μ` the mean of the row (its sum
  divided by 128) and `σ²` the mean of the squared deviations `(h k - μ)²`, entry `j` becomes
  `(h j - μ) · (σ² + ε)^(-1/2) · w j + b j`, where `ε` is the value of the single-precision word `0x3727C5AC`
  (the nearest single-precision number to 10⁻⁵, the same word in both programs) and 128 is the value of the word
  `0x43000000`.  Division and the inverse square root are the extended reals' total versions.
-/
import Idealize.ShloMosaic.PureOps.Ideal
import Idealize.ShloMosaic.Lib.ValueIdx

noncomputable section

namespace Cert.Spec

open Idealize.ShloMosaic

/-- The mean of a row of 128 extended reals: the row's sum divided by 128. -/
def rowMean (h : Fin 128 → EReal) : EReal :=
  Ideal.div (∑ k : Fin 128, h k) (Ideal.ofBits .f32 0x43000000#32)

/-- The mean of the squared deviations of a row from its mean. -/
def rowVar (h : Fin 128 → EReal) : EReal :=
  rowMean fun k => (h k - rowMean h) * (h k - rowMean h)

/-- Layer normalisation of one row `h` with scale `w` and shift `b`, at entry `j`. -/
def lnRow (h w b : Fin 128 → EReal) (j : Fin 128) : EReal :=
  (h j - rowMean h) * Ideal.rsqrt (rowVar h + Ideal.ofBits .f32 0x3727C5AC#32) * w j + b j

/-- Row `k` of the upper half of a 256-row matrix. -/
def lo (k : Fin 128) : Fin 256 := ⟨k.val, by omega⟩

/-- Row `k` of the lower half of a 256-row matrix: row `128 + k`. -/
def hi (k : Fin 128) : Fin 256 := ⟨128 + k.val, by omega⟩

/-- Layer normalisation depends on the row only through its entries. -/
theorem lnRow_congr {h h' : Fin 128 → EReal} (e : ∀ k, h k = h' k) (w b : Fin 128 → EReal) (j : Fin 128) :
    lnRow h w b j = lnRow h' w b j := by
  have : h = h' := funext e
  rw [this]

end Cert.Spec

end
-- ==== Proof.Region0.lean ====
/-
  The first pallas_call: the node features (50000 rows of 128) times two 128×128 weight matrices, ten row blocks of 5000.
  Whatever the arrays hold when the call is entered, each of its two result arrays ends holding the full matrix product:
  entry (r, j) is the sum over k of node(r, k) · weight(k, j).
-/
import proofs.«412064_j25177098289382_1_alg».proof.Proof.Gen.KernelIdeal.Frame
import proofs.«412064_j25177098289382_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets, as the constant function. -/
theorem hz0 : (![0, 0] : Fin 2 → Nat) = fun _ => 0 := funext fun a => by fin_cases a <;> rfl

/-! ## One block product at an entry

The product of a 5000×128 block with a 128×128 matrix contracts the block's second axis with the matrix's first:
at output entry `i` and contraction index `q` the left operand is read at `(i 0, q)` and the right one at `(q, i 1)`. -/

theorem lhs_node_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_node_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_node_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_node_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator, at entry `(p, q)`: the sum over `k` of `a (p, k) · b (k, q)`. -/
theorem nodeBlockProd_apply (a : FVec Ideal S5000x128 .bf16) (b : FVec Ideal S128x128 .bf16) (p : Fin 5000) (q : Fin 128) :
    FloatOps.matmul dot_S5000x128_S128x128_S5000x128_1_0_0_1_n_n none a b (constant S5000x128 .f32 0x00000000#32) (ix2 p q)
      = ∑ k : Fin 128, a (ix2 p k) * b (ix2 k q) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_node_0 _ _
    | ⟨1, _⟩ => exact (lhs_node_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_node_0 _ _).trans hk
    | ⟨1, _⟩ => exact rhs_node_1 _ _)
  rw [el, er]

/-- What the body stores into the first result's block, at an entry: rounding to the narrower format is the identity
    on the extended reals, so it is the plain block product. -/
theorem k0_pay2_apply (x0 : Vec Ideal S5000x128 .f32) (x1 : Vec Ideal S128x128 .f32) (p : Fin 5000) (q : Fin 128) :
    k0_pay2 x0 x1 (ix2 p q) = ∑ k : Fin 128, x0 (ix2 p k) * x1 (ix2 k q) := by
  unfold k0_pay2 k0_pay1
  exact nodeBlockProd_apply _ _ p q

/-- The same for the second result's block. -/
theorem k0_pay3_apply (x0 : Vec Ideal S5000x128 .f32) (x2 : Vec Ideal S128x128 .f32) (p : Fin 5000) (q : Fin 128) :
    k0_pay3 x0 x2 (ix2 p q) = ∑ k : Fin 128, x0 (ix2 p k) * x2 (ix2 k q) := by
  unfold k0_pay3 k0_pay1
  exact nodeBlockProd_apply _ _ p q

/-! ## From blocks to the arrays -/

/-- The full product of a 50000×128 matrix with a 128×128 matrix, entry by entry. -/
def nodeProd (X : S50000x128.Idx → EReal) (W : S128x128.Idx → EReal) : S50000x128.Idx → EReal :=
  fun i => ∑ k : Fin 128, X (ix2 (i 0) k) * W (ix2 k (i 1))

/-- If row `p` of the block `b0` is row `i 0` of `X` and column `q` of `b1` is column `i 1` of `W`, the block
    product at `(p, q)` is the full product at `i`. -/
theorem k0_pay2_block (X : S50000x128.Idx → EReal) (W : S128x128.Idx → EReal)
    (b0 : Vec Ideal S5000x128 .f32) (b1 : Vec Ideal S128x128 .f32) (i : S50000x128.Idx) (p : Fin 5000) (q : Fin 128)
    (h0 : ∀ k : Fin 128, b0 (ix2 p k) = X (ix2 (i 0) k)) (h1 : ∀ k : Fin 128, b1 (ix2 k q) = W (ix2 k (i 1))) :
    k0_pay2 b0 b1 (ix2 p q) = nodeProd X W i := by
  rw [k0_pay2_apply]
  unfold nodeProd
  exact Finset.sum_congr rfl fun k _ => by rw [h0 k, h1 k]

theorem k0_pay3_block (X : S50000x128.Idx → EReal) (W : S128x128.Idx → EReal)
    (b0 : Vec Ideal S5000x128 .f32) (b2 : Vec Ideal S128x128 .f32) (i : S50000x128.Idx) (p : Fin 5000) (q : Fin 128)
    (h0 : ∀ k : Fin 128, b0 (ix2 p k) = X (ix2 (i 0) k)) (h2 : ∀ k : Fin 128, b2 (ix2 k q) = W (ix2 k (i 1))) :
    k0_pay3 b0 b2 (ix2 p q) = nodeProd X W i := by
  rw [k0_pay3_apply]
  unfold nodeProd
  exact Finset.sum_congr rfl fun k _ => by rw [h0 k, h2 k]

/-- The block indices at grid point `t`: the node features and both results move to row block `t`, the two weight
    matrices stay whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- What point `t` writes back to the first result is block `t` of the full product. -/
theorem flushed0_3_eq (c : Dev nD) (t : Fin cfg0.N) :
    (dat0 V c).flushed 3 t = ((cfg0.win 3).blk t).view.read (Elt Ideal) (nodeProd (V c main_arg0) (V c main_arg3)) := by
  show (cfg0.win 3).cut (grid0.coords t) ((dat0 V c).after 3 t) = _
  rw [after0_3]
  unfold out0_3
  rw [View.canon_unit_zero hz0]
  simp only [View.ld_unit_zero (S := S5000x128) hz0, View.ld_unit_zero (S := S128x128) hz0]
  obtain ⟨e00, e01, e10, e11, e20, e21, e30, e31, e40, e41⟩ := idx_facts0 t
  funext j
  obtain ⟨p, q, rfl⟩ : ∃ (p : Fin 5000) (q : Fin 128), j = ix2 p q := ⟨j 0, j 1, eq_ix2 j⟩
  show k0_pay2 (iblk0 V c 0 t) (iblk0 V c 1 t) (ix2 p q) = nodeProd (V c main_arg0) (V c main_arg3) (((cfg0.win 3).blk t).view.emb (ix2 p q))
  refine k0_pay2_block (V c main_arg0) (V c main_arg3) (iblk0 V c 0 t) (iblk0 V c 1 t) _ p q (fun k => ?_) (fun k => ?_)
  · show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  · show V c main_arg3 (((cfg0.win 1).blk t).view.emb (ix2 k q)) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega

/-- What point `t` writes back to the second result is block `t` of the full product with the second weight matrix. -/
theorem flushed0_4_eq (c : Dev nD) (t : Fin cfg0.N) :
    (dat0 V c).flushed 4 t = ((cfg0.win 4).blk t).view.read (Elt Ideal) (nodeProd (V c main_arg0) (V c main_arg4)) := by
  show (cfg0.win 4).cut (grid0.coords t) ((dat0 V c).after 4 t) = _
  rw [after0_4]
  unfold out0_4
  rw [View.canon_unit_zero hz0]
  simp only [View.ld_unit_zero (S := S5000x128) hz0, View.ld_unit_zero (S := S128x128) hz0]
  obtain ⟨e00, e01, e10, e11, e20, e21, e30, e31, e40, e41⟩ := idx_facts0 t
  funext j
  obtain ⟨p, q, rfl⟩ : ∃ (p : Fin 5000) (q : Fin 128), j = ix2 p q := ⟨j 0, j 1, eq_ix2 j⟩
  show k0_pay3 (iblk0 V c 0 t) (iblk0 V c 2 t) (ix2 p q) = nodeProd (V c main_arg0) (V c main_arg4) (((cfg0.win 4).blk t).view.emb (ix2 p q))
  refine k0_pay3_block (V c main_arg0) (V c main_arg4) (iblk0 V c 0 t) (iblk0 V c 2 t) _ p q (fun k => ?_) (fun k => ?_)
  · show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_4.index t (0 : Fin 2) * 5000 + 1 * p.val; omega
    | ⟨1, _⟩ => show win0_0.index t (1 : Fin 2) * 128 + 1 * k.val = k.val; omega
  · show V c main_arg4 (((cfg0.win 2).blk t).view.emb (ix2 k q)) = _
    refine congrArg (V c main_arg4) (funext fun a => Fin.ext ?_)
    match a with
    | ⟨0, _⟩ => show win0_2.index t (0 : Fin 2) * 128 + 1 * k.val = k.val; omega
    | ⟨1, _⟩ => show win0_2.index t (1 : Fin 2) * 128 + 1 * q.val = win0_4.index t (1 : Fin 2) * 128 + 1 * q.val; omega

/-- An entry lies in the rows point `t` writes of the first result iff each coordinate lies in the block's range. -/
theorem mem_blk0_3 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v4_0).slice (win0_3.rect t)).set ↔ _
  rw [View.set_slice_whole, Rect.mem_set_unit]
  exact Iff.rfl

/-- The same for the second result. -/
theorem mem_blk0_4 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v4_1).slice (win0_4.rect t)).set ↔ _
  rw [View.set_slice_whole, Rect.mem_set_unit]
  exact Iff.rfl

/-- Every row `r` of the first result is written by the point `r / 5000`: ten blocks of 5000 rows tile the 50000. -/
theorem covered0_3 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : (i 0).val / 5000 < grid0.N := by rw [N_0]; omega
  obtain ⟨e00, e01, e10, e11, e20, e21, e30, e31, e40, e41⟩ := idx_facts0 ⟨(i 0).val / 5000, hN⟩
  have e30' : win0_3.index ⟨(i 0).val / 5000, hN⟩ (0 : Fin 2) = (i 0).val / 5000 := e30
  refine ⟨⟨(i 0).val / 5000, hN⟩, flush0_3 _, ?_⟩
  rw [mem_blk0_3]
  intro a
  match a with
  | ⟨0, _⟩ => show win0_3.index ⟨(i 0).val / 5000, hN⟩ (0 : Fin 2) * 5000 ≤ (i 0).val ∧ (i 0).val < win0_3.index ⟨(i 0).val / 5000, hN⟩ (0 : Fin 2) * 5000 + 5000; omega
  | ⟨1, _⟩ => show win0_3.index ⟨(i 0).val / 5000, hN⟩ (1 : Fin 2) * 128 ≤ (i 1).val ∧ (i 1).val < win0_3.index ⟨(i 0).val / 5000, hN⟩ (1 : Fin 2) * 128 + 128; omega

/-- The same for the second result. -/
theorem covered0_4 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : (i 0).val / 5000 < grid0.N := by rw [N_0]; omega
  obtain ⟨e00, e01, e10, e11, e20, e21, e30, e31, e40, e41⟩ := idx_facts0 ⟨(i 0).val / 5000, hN⟩
  have e40' : win0_4.index ⟨(i 0).val / 5000, hN⟩ (0 : Fin 2) = (i 0).val / 5000 := e40
  refine ⟨⟨(i 0).val / 5000, hN⟩, flush0_4 _, ?_⟩
  rw [mem_blk0_4]
  intro a
  match a with
  | ⟨0, _⟩ => show win0_4.index ⟨(i 0).val / 5000, hN⟩ (0 : Fin 2) * 5000 ≤ (i 0).val ∧ (i 0).val < win0_4.index ⟨(i 0).val / 5000, hN⟩ (0 : Fin 2) * 5000 + 5000; omega
  | ⟨1, _⟩ => show win0_4.index ⟨(i 0).val / 5000, hN⟩ (1 : Fin 2) * 128 ≤ (i 1).val ∧ (i 1).val < win0_4.index ⟨(i 0).val / 5000, hN⟩ (1 : Fin 2) * 128 + 128; omega

/-- First result of the first call: the node features `x0` times the first weight matrix `x3`. -/
theorem final0_3 (c : Dev nD) (x0 : S50000x128.Idx → EReal) (x3 : S128x128.Idx → EReal)
    (h0 : V c main_arg0 = x0) (h3 : V c main_arg3 = x3) :
    (dat0 V c).arrAt 3 cfg0.N = fun i : S50000x128.Idx => ∑ k : Fin 128, x0 (ix2 (i 0) k) * x3 (ix2 k (i 1)) := by
  subst h0 h3
  exact (dat0 V c).arrAt_eq_of_cover 3 (nodeProd (V c main_arg0) (V c main_arg3)) (fun t _ => flushed0_3_eq V c t) covered0_3

/-- Second result of the first call: the node features `x0` times the second weight matrix `x4`. -/
theorem final0_4 (c : Dev nD) (x0 : S50000x128.Idx → EReal) (x4 : S128x128.Idx → EReal)
    (h0 : V c main_arg0 = x0) (h4 : V c main_arg4 = x4) :
    (dat0 V c).arrAt 4 cfg0.N = fun i : S50000x128.Idx => ∑ k : Fin 128, x0 (ix2 (i 0) k) * x4 (ix2 k (i 1)) := by
  subst h0 h4
  exact (dat0 V c).arrAt_eq_of_cover 4 (nodeProd (V c main_arg0) (V c main_arg4)) (fun t _ => flushed0_4_eq V c t) covered0_4

end Cert.KernelIdeal.RegionValue

end
-- ==== Proof.Region1.lean ====
/-
  The second pallas_call: per edge (800000 rows, a hundred blocks of 8000), the gathered neighbour row times, entry by entry,
  the edge's 32 radial features multiplied into the 32×128 edge weight matrix.
  Entry (e, j) of the result is gathered(e, j) · Σ_k edge(e, k) · weight(k, j).
-/
import proofs.«412064_j25177098289382_1_alg».proof.Proof.Gen.KernelIdeal.Frame
import proofs.«412064_j25177098289382_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets, as the constant function. -/
theorem hz1 : (![0, 0] : Fin 2 → Nat) = fun _ => 0 := funext fun a => by fin_cases a <;> rfl

/-! ## One block's payload at an entry

The product of an 8000×32 block with the 32×128 matrix contracts the block's second axis with the matrix's first:
at output entry `i` and contraction index `q` the left operand is read at `(i 0, q)` and the right one at `(q, i 1)`. -/

theorem lhs_edge_0 (i : S8000x128.Idx) (q : dot_S8000x32_S32x128_S8000x128_1_0_0_1_n_n.contr.Idx) :
    (dot_S8000x32_S32x128_S8000x128_1_0_0_1_n_n.lhsIdx i q 0).val = (i 0).val := by
  unfold DotDims.lhsIdx
  rw [dif_neg (show ¬(0 : Fin S8000x32.rank) ∈ dot_S8000x32_S32x128_S8000x128_1_0_0_1_n_n.lhsBatch by decide), dif_pos (show (0 : Fin S8000x32.rank) ∈ dot_S8000x32_S32x128_S8000x128_1_0_0_1_n_n.lhsNonContracting by decide)]
  rfl
theorem lhs_edge_1 (i : S8000x128.Idx) (q : dot_S8000x32_S32x128_S8000x128_1_0_0_1_n_n.contr.Idx) :
    (dot_S8000x32_S32x128_S8000x128_1_0_0_1_n_n.lhsIdx i q 1).val = (q ⟨0, by decide⟩).val :=
  dot_S8000x32_S32x128_S8000x128_1_0_0_1_n_n.lhsIdx_val_of_single rfl i q
theorem rhs_edge_0 (i : S8000x128.Idx) (q : dot_S8000x32_S32x128_S8000x128_1_0_0_1_n_n.contr.Idx) :
    (dot_S8000x32_S32x128_S8000x128_1_0_0_1_n_n.rhsIdx i q 0).val = (q ⟨0, by decide⟩).val :=
  dot_S8000x32_S32x128_S8000x128_1_0_0_1_n_n.rhsIdx_val_of_single rfl i q
theorem rhs_edge_1 (i : S8000x128.Idx) (q : dot_S8000x32_S32x128_S8000x128_1_0_0_1_n_n.contr.Idx) :
    (dot_S8000x32_S32x128_S8000x128_1_0_0_1_n_n.rhsIdx i q 1).val = (i 1).val := by
  unfold DotDims.rhsIdx
  rw [dif_neg (show ¬(1 : Fin S32x128.rank) ∈ dot_S8000x32_S32x128_S8000x128_1_0_0_1_n_n.rhsBatch by decide), dif_pos (show (1 : Fin S32x128.rank) ∈ dot_S8000x32_S32x128_S8000x128_1_0_0_1_n_n.rhsNonContracting by decide)]
  rfl

/-- The block product into a zero accumulator, at entry `(p, q)`: the sum over `k` of `a (p, k) · b (k, q)`. -/
theorem edgeProd_apply (a : FVec Ideal S8000x32 .bf16) (b : FVec Ideal S32x128 .bf16) (p : Fin 8000) (q : Fin 128) :
    FloatOps.matmul dot_S8000x32_S32x128_S8000x128_1_0_0_1_n_n none a b (constant S8000x128 .f32 0x00000000#32) (ix2 p q)
      = ∑ k : Fin 32, a (ix2 p k) * b (ix2 k q) := by
  rw [Ideal.matmul_constant_zero_apply, ← Equiv.sum_comp (contrEquiv1 dot_S8000x32_S32x128_S8000x128_1_0_0_1_n_n 32 rfl rfl).symm]
  refine Finset.sum_congr rfl fun k _ => ?_
  have hk := contrEquiv1_symm_val dot_S8000x32_S32x128_S8000x128_1_0_0_1_n_n 32 rfl rfl k
  have el : dot_S8000x32_S32x128_S8000x128_1_0_0_1_n_n.lhsIdx (ix2 p q) ((contrEquiv1 dot_S8000x32_S32x128_S8000x128_1_0_0_1_n_n 32 rfl rfl).symm k) = ix2 p k := funext fun a => Fin.ext (by
    match a with
    | ⟨0, _⟩ => exact lhs_edge_0 _ _
    | ⟨1, _⟩ => exact (lhs_edge_1 _ _).trans hk)
  have er : dot_S8000x32_S32x128_S8000x128_1_0_0_1_n_n.rhsIdx (ix2 p q) ((contrEquiv1 dot_S8000x32_S32x128_S8000x128_1_0_0_1_n_n 32 rfl rfl).symm k) = ix2 k q := funext fun a => Fin.ext (by
    match a with
    | ⟨0, _⟩ => exact (rhs_edge_0 _ _).trans hk
    | ⟨1, _⟩ => exact rhs_edge_1 _ _)
  rw [el, er]

/-- What the body stores, at an entry: rounding to the narrower format is the identity on the extended reals and the
    reshape to the same shape reads the same entry, so it is the gathered entry times the block product. -/
theorem k1_pay1_apply (a : Vec Ideal S8000x32 .f32) (w : Vec Ideal S32x128 .f32) (g : Vec Ideal S8000x128 .f32) (p : Fin 8000) (q : Fin 128) :
    k1_pay1 a w g (ix2 p q) = g (ix2 p q) * ∑ k : Fin 32, a (ix2 p k) * w (ix2 k q) := by
  unfold k1_pay1
  have e1 : shapeCast S8000x128 g shapeCasts_S8000x128_S8000x128 = g := shapeCast_self g _
  have e2 := edgeProd_apply (truncf .bf16 a bitsLt_bf16_f32) (truncf .bf16 w bitsLt_bf16_f32) p q
  exact congrArg₂ (· * ·) (congrFun e1 (ix2 p q)) e2

/-! ## From blocks to the array -/

/-- The messages, entry by entry: the gathered entry times the projected radial features. -/
def edgeMsg (X : S800000x32.Idx → EReal) (G : S800000x128.Idx → EReal) (W : S32x128.Idx → EReal) : S800000x128.Idx → EReal :=
  fun i => G i * ∑ k : Fin 32, X (ix2 (i 0) k) * W (ix2 k (i 1))

/-- If entry `(p, q)` of the block `b1` is entry `i` of `G`, row `p` of `b0` is row `i 0` of `X` and column `q` of `b2` is
    column `i 1` of `W`, the payload at `(p, q)` is the message at `i`. -/
theorem k1_pay1_block (X : S800000x32.Idx → EReal) (G : S800000x128.Idx → EReal) (W : S32x128.Idx → EReal)
    (b0 : Vec Ideal S8000x32 .f32) (b2 : Vec Ideal S32x128 .f32) (b1 : Vec Ideal S8000x128 .f32)
    (i : S800000x128.Idx) (p : Fin 8000) (q : Fin 128)
    (hg : b1 (ix2 p q) = G i) (h0 : ∀ k : Fin 32, b0 (ix2 p k) = X (ix2 (i 0) k)) (h2 : ∀ k : Fin 32, b2 (ix2 k q) = W (ix2 k (i 1))) :
    k1_pay1 b0 b2 b1 (ix2 p q) = edgeMsg X G W i := by
  rw [k1_pay1_apply, hg]
  unfold edgeMsg
  exact congrArg (G i * ·) (Finset.sum_congr rfl fun k _ => by rw [h0 k, h2 k])

/-- The block indices at grid point `t`: the radial features, the gathered rows and the result move to row block `t`,
    the weight matrix stays whole. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the messages. -/
theorem flushed1_3_eq (c : Dev nD) (t : Fin cfg1.N) :
    (dat1 V c).flushed 3 t = ((cfg1.win 3).blk t).view.read (Elt Ideal) (edgeMsg (V c main_arg1) (V c main_v5) (V c main_arg6)) := by
  show (cfg1.win 3).cut (grid1.coords t) ((dat1 V c).after 3 t) = _
  rw [after1_3]
  unfold out1_3
  rw [View.canon_unit_zero hz1]
  simp only [View.ld_unit_zero (S := S8000x32) hz1, View.ld_unit_zero (S := S32x128) hz1, View.ld_unit_zero (S := S8000x128) hz1]
  obtain ⟨e00, e01, e10, e11, e20, e21, e30, e31⟩ := idx_facts1 t
  funext j
  obtain ⟨p, q, rfl⟩ : ∃ (p : Fin 8000) (q : Fin 128), j = ix2 p q := ⟨j 0, j 1, eq_ix2 j⟩
  show k1_pay1 (iblk1 V c 0 t) (iblk1 V c 2 t) (iblk1 V c 1 t) (ix2 p q) = edgeMsg (V c main_arg1) (V c main_v5) (V c main_arg6) (((cfg1.win 3).blk t).view.emb (ix2 p q))
  refine k1_pay1_block (V c main_arg1) (V c main_v5) (V c main_arg6) (iblk1 V c 0 t) (iblk1 V c 2 t) (iblk1 V c 1 t) _ p q ?_ (fun k => ?_) (fun k => ?_)
  · show V c main_v5 (((cfg1.win 1).blk t).view.emb (ix2 p q)) = _
    refine congrArg (V c main_v5) (funext fun a => Fin.ext ?_)
    match a with
    | ⟨0, _⟩ => show win1_1.index t (0 : Fin 2) * 8000 + 1 * p.val = win1_3.index t (0 : Fin 2) * 8000 + 1 * p.val; omega
    | ⟨1, _⟩ => show win1_1.index t (1 : Fin 2) * 128 + 1 * q.val = win1_3.index t (1 : Fin 2) * 128 + 1 * q.val; omega
  · show V c main_arg1 (((cfg1.win 0).blk t).view.emb (ix2 p k)) = _
    refine congrArg (V c main_arg1) (funext fun a => Fin.ext ?_)
    match a with
    | ⟨0, _⟩ => show win1_0.index t (0 : Fin 2) * 8000 + 1 * p.val = win1_3.index t (0 : Fin 2) * 8000 + 1 * p.val; omega
    | ⟨1, _⟩ => show win1_0.index t (1 : Fin 2) * 32 + 1 * k.val = k.val; omega
  · show V c main_arg6 (((cfg1.win 2).blk t).view.emb (ix2 k q)) = _
    refine congrArg (V c main_arg6) (funext fun a => Fin.ext ?_)
    match a with
    | ⟨0, _⟩ => show win1_2.index t (0 : Fin 2) * 32 + 1 * k.val = k.val; omega
    | ⟨1, _⟩ => show win1_2.index t (1 : Fin 2) * 128 + 1 * q.val = win1_3.index t (1 : Fin 2) * 128 + 1 * q.val; omega

/-- An entry lies in the rows point `t` writes iff each coordinate lies in the block's range. -/
theorem mem_blk1_3 (t : Fin cfg1.N) (i : S800000x128.Idx) :
    i ∈ ((cfg1.win 3).blk t).view.set ↔ ∀ a : Fin 2, win1_3.index t a * S8000x128.size a ≤ (i a).val ∧ (i a).val < win1_3.index t a * S8000x128.size a + S8000x128.size a := by
  show i ∈ ((View.whole main_v6).slice (win1_3.rect t)).set ↔ _
  rw [View.set_slice_whole, Rect.mem_set_unit]
  exact Iff.rfl

/-- Every row `r` is written by the point `r / 8000`: a hundred blocks of 8000 rows tile the 800000. -/
theorem covered1_3 (i : S800000x128.Idx) :
    ∃ t : Fin cfg1.N, (cfg1.win 3).flush t = true ∧ i ∈ ((cfg1.win 3).blk t).view.set := by
  have hi0 : (i 0).val < 800000 := (i 0).isLt
  have hi1 : (i 1).val < 128 := (i 1).isLt
  have hN : (i 0).val / 8000 < grid1.N := by rw [N_1]; omega
  obtain ⟨e00, e01, e10, e11, e20, e21, e30, e31⟩ := idx_facts1 ⟨(i 0).val / 8000, hN⟩
  have e30' : win1_3.index ⟨(i 0).val / 8000, hN⟩ (0 : Fin 2) = (i 0).val / 8000 := e30
  refine ⟨⟨(i 0).val / 8000, hN⟩, flush1_3 _, ?_⟩
  rw [mem_blk1_3]
  intro a
  match a with
  | ⟨0, _⟩ => show win1_3.index ⟨(i 0).val / 8000, hN⟩ (0 : Fin 2) * 8000 ≤ (i 0).val ∧ (i 0).val < win1_3.index ⟨(i 0).val / 8000, hN⟩ (0 : Fin 2) * 8000 + 8000; omega
  | ⟨1, _⟩ => show win1_3.index ⟨(i 0).val / 8000, hN⟩ (1 : Fin 2) * 128 ≤ (i 1).val ∧ (i 1).val < win1_3.index ⟨(i 0).val / 8000, hN⟩ (1 : Fin 2) * 128 + 128; omega

/-- The messages: the gathered rows `g` times the projected radial features (`x1` into `x6`), entry by entry. -/
theorem final1_3 (c : Dev nD) (x1 : S800000x32.Idx → EReal) (g : S800000x128.Idx → EReal) (x6 : S32x128.Idx → EReal)
    (h1 : V c main_arg1 = x1) (hg : V c main_v5 = g) (h6 : V c main_arg6 = x6) :
    (dat1 V c).arrAt 3 cfg1.N = fun i : S800000x128.Idx =>
      g i * ∑ k : Fin 32, x1 (ix2 (i 0) k) * x6 (ix2 k (i 1)) := by
  subst h1 hg h6
  exact (dat1 V c).arrAt_eq_of_cover 3 (edgeMsg (V c main_arg1) (V c main_v5) (V c main_arg6)) (fun t _ => flushed1_3_eq V c t) covered1_3

end Cert.KernelIdeal.RegionValue

end
-- ==== Proof.Pre.lean ====
/-
  What the precondition says of the neighbour indices.  Its last conjunct is "every entry a of row 1 of the index-pair array
  satisfies −50000 ≤ a < 50000" (as signed 32-bit integers): the range in which an index into a table of 50000 rows is
  defined, negative indices counting from the end.  For such an index the wrapped index a' (a + 50000 when a < 0, else a)
  lies in 0 … 49999, so the range test that guards the gathered row passes.
-/
import proofs.«412064_j25177098289382_1_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.PreRead

open Idealize.ShloMosaic Cert.Pre_finite_inputs Cert.Pre_finite_inputs.Facts

/-- An index in −50000 … 49999, wrapped (50000 added when negative), lies in 0 … 49999. -/
theorem wrapped_in_range (a : BitVec 32) (h1 : IntOp.cmpi .sge a 4294917296#32 = 1#1) (h2 : IntOp.cmpi .slt a 50000#32 = 1#1) :
    IntOp.andi
      (IntOp.cmpi .sge (Scalar.select (IntOp.cmpi .slt a 0#32) (IntOp.addi a 50000#32) a) 0#32)
      (IntOp.cmpi .sle (Scalar.select (IntOp.cmpi .slt a 0#32) (IntOp.addi a 50000#32) a) 49999#32) = 1#1 := by
  rw [IntOp.cmpi_sge] at h1
  rw [IntOp.cmpi_slt] at h2
  have e1 : (4294917296#32 : BitVec 32).toInt = -50000 := by decide
  have e2 : (50000#32 : BitVec 32).toInt = 50000 := by decide
  have e3 : (0#32 : BitVec 32).toInt = 0 := by decide
  have e4 : (49999#32 : BitVec 32).toInt = 49999 := by decide
  rw [e1] at h1
  rw [e2] at h2
  rw [IntOp.andi_eq_one, IntOp.cmpi_sge, IntOp.cmpi_sle, e3, e4]
  by_cases hn : a.toInt < 0
  · have hc : IntOp.cmpi .slt a 0#32 = 1#1 := IntOp.cmpi_slt.2 (by rw [e3]; exact hn)
    have hs : Scalar.select (IntOp.cmpi .slt a 0#32) (IntOp.addi a 50000#32) a = IntOp.addi a 50000#32 := by
      unfold Scalar.select
      split
      · rfl
      · rename_i hp; exact absurd hc hp
    rw [hs]
    have ha : (IntOp.addi a 50000#32).toInt = a.toInt + 50000 := by
      unfold IntOp.addi
      rw [BitVec.toInt_add, e2, Int.bmod_def]
      split <;> omega
    rw [ha]; omega
  · have hc : ¬ IntOp.cmpi .slt a 0#32 = 1#1 := fun hc => hn (by have := IntOp.cmpi_slt.1 hc; rwa [e3] at this)
    have hs : Scalar.select (IntOp.cmpi .slt a 0#32) (IntOp.addi a 50000#32) a = a := by
      unfold Scalar.select
      split
      · rename_i hp; exact absurd hp hc
      · rfl
    rw [hs]
    omega

variable [hP : Cert.Pre_finite_inputs.Facts]

/-- The neighbour indices: row 1 of the index-pair array, as a vector of 800000 words. -/
abbrev neigh (x2 : IVec S2x800000 32) : IVec S800000 32 :=
  shapeCast S800000 (extractStridedSlice S1x800000 ![1, 0] x2 slices_S2x800000_S1x800000_1_0) shapeCasts_S1x800000_S800000

instance : Subsingleton S_.Idx := ⟨fun a b => funext fun d => d.elim0⟩

/-- Under the precondition every neighbour index lies in −50000 … 49999. -/
theorem neigh_range (x0 : FVec Ideal S50000x128 .f32) (x1 : FVec Ideal S800000x32 .f32) (x2 : IVec S2x800000 32)
    (x3 x4 : FVec Ideal S128x128 .f32) (x5 : FVec Ideal S256x128 .f32) (x6 : FVec Ideal S32x128 .f32) (x7 x8 : FVec Ideal S128 .f32)
    (h : fn (F := Ideal) x0 x1 x2 x3 x4 x5 x6 x7 x8 = fun _ => 1#1) (e : S800000.Idx) :
    IntOp.cmpi .sge (neigh x2 e) 4294917296#32 = 1#1 ∧ IntOp.cmpi .slt (neigh x2 e) 50000#32 = 1#1 := by
  have h0 : IntOp.andi _ ((fun x v => Host.reduce IntOp.andi x v reducesTo_S800000_S_d0 h_S_)
      (andi (cmpi .sge (neigh x2) (broadcastInDim S800000 ![] bcast_S_S800000 (constantI S_ 32 4294917296#32)))
            (cmpi .slt (neigh x2) (broadcastInDim S800000 ![] bcast_S_S800000 (constantI S_ 32 50000#32))))
      (constantI S_ 1 1#1) ValueIdx.ix0) = 1#1 := congrFun h ValueIdx.ix0
  have h1 := (IntOp.andi_eq_one.1 h0).2
  have h2 := Host.reduce_andi_all _ _ reducesTo_S800000_S_d0 h_S_ ValueIdx.ix0 h1 e
  exact IntOp.andi_eq_one.1 h2

end Cert.PreRead

end
-- ==== Proof.Take.lean ====
/-
  The gather of neighbour rows with its range guard.  Each neighbour index a is first wrapped (50000 added when a < 0); the
  gathered row is kept where the wrapped index lies in 0 … 49999 and replaced by the not-a-number word elsewhere.  When
  every index lies in −50000 … 49999 the guard passes everywhere, so the guarded gather is the plain gather.
-/
import proofs.«412064_j25177098289382_1_alg».proof.Proof.Gen.KernelIdeal
import proofs.«412064_j25177098289382_1_alg».proof.Proof.Pre
import Idealize.ShloMosaic.PureOps.Ideal
import Idealize.ShloMosaic.PureOps.Reduce
import Idealize.ShloMosaic.Lib.ReduceAll

set_option maxRecDepth 16384

noncomputable section

namespace Cert.KernelIdeal.Take

open Cert.KernelIdeal Cert.KernelIdeal.Gen Idealize.ShloMosaic

/-- Row 0 of the index-pair array as a vector of 800000 words: the centre indices. -/
abbrev row0 (x2 : IVec S2x800000 32) : IVec S800000 32 :=
  shapeCast S800000 (extractStridedSlice S1x800000 ![0, 0] x2 slices_S2x800000_S1x800000_0_0) shapeCasts_S1x800000_S800000
/-- Row 1 of the index-pair array: the neighbour indices. -/
abbrev row1 (x2 : IVec S2x800000 32) : IVec S800000 32 :=
  shapeCast S800000 (extractStridedSlice S1x800000 ![1, 0] x2 slices_S2x800000_S1x800000_1_0) shapeCasts_S1x800000_S800000

/-- The wrapped index column: 50000 added to a negative index. -/
abbrev wrapIdx (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- The range test of the wrapped index column, entry by entry: 1 where 0 ≤ index ≤ 49999. -/
abbrev rangeBits (idx : IVec S800000 32) : IVec S800000x1 1 :=
  andi (cmpi .sge (wrapIdx idx) (broadcastInDim S800000x1 ![] bcast_S_S800000x1 (constantI S_ 32 0#32)))
    (cmpi .sle (wrapIdx idx) (broadcastInDim S800000x1 ![0, 1] bcast_S1x1_S800000x1_0_1
      (broadcastInDim S1x1 ![1] bcast_S1_S1x1_1 (constantI S1 32 49999#32))))

/-- The range test per gathered row. -/
abbrev inRange (idx : IVec S800000 32) : IVec S800000 1 :=
  Host.reduce IntOp.andi (rangeBits idx) (constantI S_ 1 1#1) reducesTo_S800000x1_S800000_d1 h_S_

/-- The gathered rows of a table, a row whose wrapped index is out of range filled with the not-a-number word. -/
abbrev takeFill (tbl : S50000x128.Idx → EReal) (idx : IVec S800000 32) : S800000x128.Idx → EReal :=
  select (broadcastInDim S800000x128 ![0] bcast_S800000_S800000x128_0 (inRange idx))
    (Host.gather gather_S50000x128_S800000x1_S800000x128_1_0_n_n_0_1_1128 tbl (wrapIdx idx))
    (broadcastInDim S800000x128 ![] bcast_S_S800000x128 (constant (F := Ideal) S_ .f32 0x7FC00000#32))

/-- A fold by `and` from 1 over words that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], init, h, _ => h
  | a :: l, init, h, hf => by
    rw [List.foldl_cons]
    refine foldl_andi_ones f l _ ?_ (fun n hn => hf n (List.mem_cons_of_mem _ hn))
    rw [h, hf a (List.mem_cons_self ..)]
    decide

/-- Every index in −50000 … 49999: every entry of the range test is 1. -/
theorem rangeBits_eq_one (idx : IVec S800000 32)
    (h : ∀ e, IntOp.cmpi .sge (idx e) 4294917296#32 = 1#1 ∧ IntOp.cmpi .slt (idx e) 50000#32 = 1#1) (i : S800000x1.Idx) :
    rangeBits idx i = 1#1 := by
  dsimp only [rangeBits, wrapIdx, andi, cmpi, select, addi, broadcastInDim, constantI]
  exact Cert.PreRead.wrapped_in_range _ (h _).1 (h _).2

/-- So the per-row range test is 1 everywhere. -/
theorem inRange_eq_one (idx : IVec S800000 32)
    (h : ∀ e, IntOp.cmpi .sge (idx e) 4294917296#32 = 1#1 ∧ IntOp.cmpi .slt (idx e) 50000#32 = 1#1) (e : S800000.Idx) :
    inRange idx e = 1#1 := by
  unfold inRange
  rw [Host.reduce_eq_foldl]
  exact foldl_andi_ones _ _ _ rfl (fun n _ => rangeBits_eq_one idx h n)

/-- And the guarded gather is the plain gather of the wrapped indices. -/
theorem takeFill_eq_gather (tbl : S50000x128.Idx → EReal) (idx : IVec S800000 32)
    (h : ∀ e, IntOp.cmpi .sge (idx e) 4294917296#32 = 1#1 ∧ IntOp.cmpi .slt (idx e) 50000#32 = 1#1) :
    takeFill tbl idx = Host.gather gather_S50000x128_S800000x1_S800000x128_1_0_n_n_0_1_1128 tbl (wrapIdx idx) := by
  funext j
  show Scalar.select (broadcastInDim S800000x128 ![0] bcast_S800000_S800000x128_0 (inRange idx) j) _ _ = _
  have hm : broadcastInDim S800000x128 ![0] bcast_S800000_S800000x128_0 (inRange idx) j = 1#1 := inRange_eq_one idx h _
  rw [hm]
  rfl

end Cert.KernelIdeal.Take

end
-- ==== Proof.HostValues.lean ====
/-
  What each buffer holds at the boundaries between the host stretches and the three pallas_calls.
  Nothing writes an argument; the first stretch cuts the index-pair array into its two rows; the first call leaves the two
  node projections; the second stretch gathers the neighbour rows of the first projection (a row whose wrapped index falls
  outside 0 … 49999 is filled with the not-a-number word instead); the second call leaves the messages; the third stretch
  sums the messages into their centre nodes and cuts the 256-row weight matrix into halves.
-/
import proofs.«412064_j25177098289382_1_alg».proof.Proof.Gen.KernelIdeal.Frame
import proofs.«412064_j25177098289382_1_alg».proof.Proof.Region0
import proofs.«412064_j25177098289382_1_alg».proof.Proof.Region1
import proofs.«412064_j25177098289382_1_alg».proof.Proof.Take
import Idealize.ShloMosaic.Lib.StableHlo.Run
import Idealize.ShloMosaic.PureOps.Ideal

set_option maxRecDepth 16384

noncomputable section

namespace Cert.KernelIdeal.HostValue

open Cert.KernelIdeal Cert.KernelIdeal.Gen Cert.KernelIdeal.RegionValue Cert.KernelIdeal.Take
open Idealize.ShloMosaic Idealize.ShloMosaic.TcCoe Idealize.SL.Sem Idealize.ShloMosaic.StableHlo
open Idealize.ShloMosaic.ValueIdx

/-- A stretch of host operations leaves a buffer none of them writes as it found it. -/
macro "host_keep " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable (m : (ℓ : Loc nD τ sig) → Buf (Elt Ideal) ℓ) (ρ : Dev nD → PrngReg)

variable (c : Dev nD)

/-! ## The argument arrays, at their literal types -/

abbrev arg0 : S50000x128.Idx → EReal := m ((c : Thread nD τ).loc main_arg0)
abbrev arg1 : S800000x32.Idx → EReal := m ((c : Thread nD τ).loc main_arg1)
abbrev arg2 : IVec S2x800000 32 := m ((c : Thread nD τ).loc main_arg2)
abbrev arg3 : S128x128.Idx → EReal := m ((c : Thread nD τ).loc main_arg3)
abbrev arg4 : S128x128.Idx → EReal := m ((c : Thread nD τ).loc main_arg4)
abbrev arg5 : S256x128.Idx → EReal := m ((c : Thread nD τ).loc main_arg5)
abbrev arg6 : S32x128.Idx → EReal := m ((c : Thread nD τ).loc main_arg6)
abbrev arg7 : S128.Idx → EReal := m ((c : Thread nD τ).loc main_arg7)
abbrev arg8 : S128.Idx → EReal := m ((c : Thread nD τ).loc main_arg8)

/-! ## Entering the first call -/

theorem W1_arg (b : Ref sig .tc) (hb : W1 m ρ c (Proc.devRef .tc b) = W0 m ρ c (Proc.devRef .tc b)) :
    W1 m ρ c (Proc.devRef .tc b) = m ((c : Thread nD τ).loc b) := hb.trans rfl

theorem W1_arg0 : W1 m ρ c (Proc.devRef .tc main_arg0) = m ((c : Thread nD τ).loc main_arg0) := W1_arg m ρ c _ (by host_keep hostOps0)
theorem W1_arg1 : W1 m ρ c (Proc.devRef .tc main_arg1) = m ((c : Thread nD τ).loc main_arg1) := W1_arg m ρ c _ (by host_keep hostOps0)
theorem W1_arg3 : W1 m ρ c (Proc.devRef .tc main_arg3) = m ((c : Thread nD τ).loc main_arg3) := W1_arg m ρ c _ (by host_keep hostOps0)
theorem W1_arg4 : W1 m ρ c (Proc.devRef .tc main_arg4) = m ((c : Thread nD τ).loc main_arg4) := W1_arg m ρ c _ (by host_keep hostOps0)
theorem W1_arg5 : W1 m ρ c (Proc.devRef .tc main_arg5) = m ((c : Thread nD τ).loc main_arg5) := W1_arg m ρ c _ (by host_keep hostOps0)
theorem W1_arg6 : W1 m ρ c (Proc.devRef .tc main_arg6) = m ((c : Thread nD τ).loc main_arg6) := W1_arg m ρ c _ (by host_keep hostOps0)
theorem W1_arg7 : W1 m ρ c (Proc.devRef .tc main_arg7) = m ((c : Thread nD τ).loc main_arg7) := W1_arg m ρ c _ (by host_keep hostOps0)
theorem W1_arg8 : W1 m ρ c (Proc.devRef .tc main_arg8) = m ((c : Thread nD τ).loc main_arg8) := W1_arg m ρ c _ (by host_keep hostOps0)

/-- The centre indices: row 0 of the index pairs. -/
theorem W1_v1 : W1 m ρ c (Proc.devRef .tc main_v1) = row0 (m ((c : Thread nD τ).loc main_arg2)) := by
  show StableHlo.after hostOps0 (W0 m ρ c) (Proc.devRef .tc main_v1) = _
  after_results
  rfl
/-- The neighbour indices: row 1 of the index pairs. -/
theorem W1_v3 : W1 m ρ c (Proc.devRef .tc main_v3) = row1 (m ((c : Thread nD τ).loc main_arg2)) := by
  show StableHlo.after hostOps0 (W0 m ρ c) (Proc.devRef .tc main_v3) = _
  after_results
  rfl

/-! ## Leaving the first call -/

/-- The first projection. -/
theorem W2_v4_0 : W2 m ρ c (Proc.devRef .tc main_v4_0) = fun i : S50000x128.Idx =>
    ∑ k : Fin 128, arg0 m c (ix2 (i 0) k) * arg3 m c (ix2 k (i 1)) :=
  (W2_arr m ρ c 3).trans (final0_3 (V1 m ρ) c _ _ (W1_arg0 m ρ c) (W1_arg3 m ρ c))
/-- The centre projection. -/
theorem W2_v4_1 : W2 m ρ c (Proc.devRef .tc main_v4_1) = fun i : S50000x128.Idx =>
    ∑ k : Fin 128, arg0 m c (ix2 (i 0) k) * arg4 m c (ix2 k (i 1)) :=
  (W2_arr m ρ c 4).trans (final0_4 (V1 m ρ) c _ _ (W1_arg0 m ρ c) (W1_arg4 m ρ c))

theorem W2_keep (b : Ref sig .tc) (hb : ∀ w, Pipeline.arrRef spec0 w ≠ b) {v} (h1 : W1 m ρ c (Proc.devRef .tc b) = v) :
    W2 m ρ c (Proc.devRef .tc b) = v := (W2_of_ne m ρ c b hb).trans h1

/-! ## Entering the second call -/

theorem W3_keep (b : Ref sig .tc) (hk : W3 m ρ c (Proc.devRef .tc b) = W2 m ρ c (Proc.devRef .tc b)) {v}
    (h2 : W2 m ρ c (Proc.devRef .tc b) = v) : W3 m ρ c (Proc.devRef .tc b) = v := hk.trans h2

theorem W3_arg1 : W3 m ρ c (Proc.devRef .tc main_arg1) = m ((c : Thread nD τ).loc main_arg1) :=
  W3_keep m ρ c _ (by host_keep hostOps1) (W2_keep m ρ c _ (by decide) (W1_arg1 m ρ c))
theorem W3_arg6 : W3 m ρ c (Proc.devRef .tc main_arg6) = m ((c : Thread nD τ).loc main_arg6) :=
  W3_keep m ρ c _ (by host_keep hostOps1) (W2_keep m ρ c _ (by decide) (W1_arg6 m ρ c))

/-- Moving contents to a typed buffer's own type and back is the identity. -/
theorem ofBuf_toBuf {T : BufTy} (x : TRef sig T) (v : T.Contents (Elt Ideal)) : x.ofBuf (x.toBuf v) = v := by
  obtain ⟨r, h, h2, h3⟩ := x
  subst h
  rfl
theorem toBuf_v5 (h1 h2 h3) (v : (⟨S800000x128, .f32⟩ : BufTy).Contents (Elt Ideal)) :
    (TRef.of (sig := sig) (T := ⟨S800000x128, .f32⟩) main_v5 h1 h2 h3).toBuf v = v := rfl
theorem ofBuf_v3 (h1 h2 h3) (v : main_v3.ty.Contents (Elt Ideal)) :
    (TRef.of (sig := sig) (T := ⟨S800000, .i32⟩) main_v3 h1 h2 h3).ofBuf v = v := rfl
theorem ofBuf_v4_0 (h1 h2 h3) (v : main_v4_0.ty.Contents (Elt Ideal)) :
    (TRef.of (sig := sig) (T := ⟨S50000x128, .f32⟩) main_v4_0 h1 h2 h3).ofBuf v = v := rfl

set_option maxHeartbeats 2000000 in
/-- The gathered neighbour rows of the first projection. -/
theorem W3_v5 : W3 m ρ c (Proc.devRef .tc main_v5) =
    takeFill (W2 m ρ c (Proc.devRef .tc main_v4_0)) (W2 m ρ c (Proc.devRef .tc main_v3)) := by
  show StableHlo.after hostOps1 (W2 m ρ c) (Proc.devRef .tc main_v5) = _
  after_results_simp
  simp only [ofBuf_toBuf, toBuf_v5, ofBuf_v3, ofBuf_v4_0]

/-! ## Leaving the second call -/

theorem W4_keep (b : Ref sig .tc) (hb : ∀ w, Pipeline.arrRef spec1 w ≠ b) {v} (h3 : W3 m ρ c (Proc.devRef .tc b) = v) :
    W4 m ρ c (Proc.devRef .tc b) = v := (W4_of_ne m ρ c b hb).trans h3

/-- The messages. -/
theorem W4_v6 (g : S800000x128.Idx → EReal) (hg : W3 m ρ c (Proc.devRef .tc main_v5) = g) :
    W4 m ρ c (Proc.devRef .tc main_v6) = fun i : S800000x128.Idx =>
      g i * ∑ k : Fin 32, arg1 m c (ix2 (i 0) k) * arg6 m c (ix2 k (i 1)) :=
  (W4_arr m ρ c 3).trans (final1_3 (V3 m ρ) c _ g _ (W3_arg1 m ρ c) hg (W3_arg6 m ρ c))

/-! ## Entering the third call -/

theorem W5_keep (b : Ref sig .tc) (hk : W5 m ρ c (Proc.devRef .tc b) = W4 m ρ c (Proc.devRef .tc b)) {v}
    (h4 : W4 m ρ c (Proc.devRef .tc b) = v) : W5 m ρ c (Proc.devRef .tc b) = v := hk.trans h4

theorem W5_arg7 : W5 m ρ c (Proc.devRef .tc main_arg7) = m ((c : Thread nD τ).loc main_arg7) :=
  W5_keep m ρ c _ (by host_keep hostOps2) (W4_keep m ρ c _ (by decide)
    (W3_keep m ρ c _ (by host_keep hostOps1) (W2_keep m ρ c _ (by decide) (W1_arg7 m ρ c))))
theorem W5_arg8 : W5 m ρ c (Proc.devRef .tc main_arg8) = m ((c : Thread nD τ).loc main_arg8) :=
  W5_keep m ρ c _ (by host_keep hostOps2) (W4_keep m ρ c _ (by decide)
    (W3_keep m ρ c _ (by host_keep hostOps1) (W2_keep m ρ c _ (by decide) (W1_arg8 m ρ c))))
theorem W4_arg5 : W4 m ρ c (Proc.devRef .tc main_arg5) = m ((c : Thread nD τ).loc main_arg5) :=
  W4_keep m ρ c _ (by decide) (W3_keep m ρ c _ (by host_keep hostOps1) (W2_keep m ρ c _ (by decide) (W1_arg5 m ρ c)))
theorem W4_v1 : W4 m ρ c (Proc.devRef .tc main_v1) = row0 (m ((c : Thread nD τ).loc main_arg2)) :=
  W4_keep m ρ c _ (by decide) (W3_keep m ρ c _ (by host_keep hostOps1) (W2_keep m ρ c _ (by decide) (W1_v1 m ρ c)))
theorem W5_v4_1 {v} (h : W2 m ρ c (Proc.devRef .tc main_v4_1) = v) : W5 m ρ c (Proc.devRef .tc main_v4_1) = v :=
  W5_keep m ρ c _ (by host_keep hostOps2) (W4_keep m ρ c _ (by decide) (W3_keep m ρ c _ (by host_keep hostOps1) h))

/-- The messages summed into their centre nodes. -/
theorem W5_v9 : W5 m ρ c (Proc.devRef .tc main_v9) =
    Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 (W4 m ρ c (Proc.devRef .tc main_v1)))
      (W4 m ρ c (Proc.devRef .tc main_v6)) := by
  show StableHlo.after hostOps2 (W4 m ρ c) (Proc.devRef .tc main_v9) = _
  after_results
/-- The upper half of the 256-row weight matrix. -/
theorem W5_v10 : W5 m ρ c (Proc.devRef .tc main_v10) =
    extractStridedSlice S128x128 ![0, 0] (W4 m ρ c (Proc.devRef .tc main_arg5)) slices_S256x128_S128x128_0_0 := by
  show StableHlo.after hostOps2 (W4 m ρ c) (Proc.devRef .tc main_v10) = _
  after_results
/-- The lower half of the 256-row weight matrix. -/
theorem W5_v11 : W5 m ρ c (Proc.devRef .tc main_v11) =
    extractStridedSlice S128x128 ![128, 0] (W4 m ρ c (Proc.devRef .tc main_arg5)) slices_S256x128_S128x128_128_0 := by
  show StableHlo.after hostOps2 (W4 m ρ c) (Proc.devRef .tc main_v11) = _
  after_results

end Cert.KernelIdeal.HostValue

end
-- ==== Proof.Region2.lean ====
/-
  The third pallas_call: per node (ten blocks of 5000 rows), the row  centre(r, ·)·W₁ + messages(r, ·)·W₂  of 128 entries,
  layer-normalised with scale and shift.
-/
import proofs.«412064_j25177098289382_1_alg».proof.Proof.Gen.KernelIdeal.Frame
import proofs.«412064_j25177098289382_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

namespace Region2

/-! ## One product of a block of rows with a square matrix, at an index -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into a zero accumulator, at row `p` and column `q`: the row of the left operand against the column
    of the right one. -/
theorem matmul_at (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  refine (Ideal.matmul_constant_zero_apply dot_S5000x128_S128x128_S5000x128_1_0_0_1_n_n none a b (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The sum along a row, and the column and row forms of a vector -/

/-- The sum over the 128 lanes of row `p`. -/
theorem rowsum_at (X : FVec Ideal S5000x128 .f32) (h : S5000x128.Reduces [1] S5000) (hφ : FKind.Formats .f32)
    (hacc : (0x00000000#32 : BitVec 32) = 0x00000000#32) (p : Fin 5000) :
    multiReduction (F := Ideal) .add [1] S5000 X 0x00000000#32 h hφ hacc (ix1 p) = ∑ k : Fin 128, X (ix2 p k) := by
  refine (Ideal.multiReduction_add_single X 0x00000000#32 h hφ hacc (ix1 p)).trans ?_
  refine Finset.sum_congr rfl fun k _ => ?_
  exact congrArg X (funext fun a => Fin.ext (by match a with | ⟨0, _⟩ => rfl | ⟨1, _⟩ => rfl))

/-- A vector of 5000 entries as a column: entry `p` of the column is entry `p` of the vector. -/
theorem col_cast_at {α : Type} (x : S5000.Idx → α) (h : S5000.ShapeCasts S5000x1) (p : Fin 5000) (u : Fin 1) :
    shapeCast S5000x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column spread over 128 lanes: every lane of row `p` holds the column's entry `p`. -/
theorem col_bcast_at {α : Type} (x : S5000x1.Idx → α) (h : S5000x1.Broadcasts S5000x128) (p : Fin 5000) (q : Fin 128) :
    broadcastTo S5000x128 x h (ix2 p q) = x (ix2 p (0 : Fin 1)) := by
  refine broadcastTo_apply x h (ix2 p q) (ix2 p (0 : Fin 1)) fun ax => ?_
  match ax with
  | ⟨0, _⟩ =>
    show p.val = if (5000 : Nat) = 1 then 0 else p.val
    rw [if_neg (by decide)]
  | ⟨1, _⟩ => rfl

/-- The inverse square root of a vector, entry by entry. -/
theorem rsqrt_at {s : Shape} {φ : FTy} (x : FVec Ideal s φ) (i : s.Idx) : rsqrt x i = Ideal.rsqrt (x i) := rfl

/-! ## The body's arithmetic at row `p`, lane `q` -/

/-- The value the body stores at row `p` and lane `q` of its block: the two products summed, then the row
    normalised, scaled and shifted. -/
theorem pay_apply (v0 v3 : Vec Ideal S5000x128 .f32) (v6 v9 : Vec Ideal S128x128 .f32) (v33 v35 : Vec Ideal S128 .f32)
    (p : Fin 5000) (q : Fin 128) :
    k2_pay1 v0 v3 v6 v9 v33 v35 (ix2 p q)
      = Cert.Spec.lnRow
          (fun j => (∑ k : Fin 128, v0 (ix2 p k) * v6 (ix2 k j)) + ∑ k : Fin 128, v3 (ix2 p k) * v9 (ix2 k j))
          (fun j => v33 (ix1 j)) (fun j => v35 (ix1 j)) q := by
  unfold k2_pay1
  simp only [addf_apply, mulf_apply, subf_apply, divf_apply, broadcast_apply, col_bcast_at, col_cast_at, rsqrt_at,
    broadcastTo_1b_ab_apply, shapeCast_a_1a_apply, shapeCast_self, truncf_apply, matmul_at]
  rw [rowsum_at, rowsum_at]
  simp only [addf_apply, mulf_apply, subf_apply, divf_apply, broadcast_apply, col_bcast_at, col_cast_at, truncf_apply, matmul_at]
  rw [rowsum_at]
  simp only [addf_apply, truncf_apply, matmul_at]
  rfl

/-- The same at any index of the block. -/
theorem pay_idx (v0 v3 : Vec Ideal S5000x128 .f32) (v6 v9 : Vec Ideal S128x128 .f32) (v33 v35 : Vec Ideal S128 .f32)
    (y : S5000x128.Idx) :
    k2_pay1 v0 v3 v6 v9 v33 v35 y
      = Cert.Spec.lnRow
          (fun j => (∑ k : Fin 128, v0 (ix2 (y 0) k) * v6 (ix2 k j)) + ∑ k : Fin 128, v3 (ix2 (y 0) k) * v9 (ix2 k j))
          (fun j => v33 (ix1 j)) (fun j => v35 (ix1 j)) (y 1) := by
  obtain ⟨p, q, rfl⟩ : ∃ (p : Fin 5000) (q : Fin 128), y = ix2 p q := ⟨y 0, y 1, eq_ix2 y⟩
  exact pay_apply v0 v3 v6 v9 v33 v35 p q

/-- Layer normalisation of equal rows, scales and shifts at equal entries. -/
theorem lnRow_congr4 {h h' w w' b b' : Fin 128 → EReal} {j j' : Fin 128} (eh : ∀ k, h k = h' k) (ew : ∀ k, w k = w' k)
    (eb : ∀ k, b k = b' k) (ej : j = j') : Cert.Spec.lnRow h w b j = Cert.Spec.lnRow h' w' b' j' := by
  have e1 : h = h' := funext eh
  have e2 : w = w' := funext ew
  have e3 : b = b' := funext eb
  rw [e1, e2, e3, ej]

/-! ## From the blocks to the array -/

theorem hz : (![0, 0] : Fin 2 → Nat) = fun _ => 0 := funext fun a => by
  match a with
  | ⟨0, _⟩ => rfl
  | ⟨1, _⟩ => rfl

theorem hz1 : (![0] : Fin 1 → Nat) = fun _ => 0 := funext fun a => by
  match a with
  | ⟨0, _⟩ => rfl

/-- Each node's combined row, layer-normalised, as one function of the six arrays the call reads. -/
abbrev rowsOut (pc mn : S50000x128.Idx → EReal) (w1 w2 : S128x128.Idx → EReal) (x7 x8 : S128.Idx → EReal) :
    S50000x128.Idx → EReal := fun i =>
  Cert.Spec.lnRow
    (fun j : Fin 128 => (∑ k : Fin 128, pc (ix2 (i 0) k) * w1 (ix2 k j)) + ∑ k : Fin 128, mn (ix2 (i 0) k) * w2 (ix2 k j))
    (fun j : Fin 128 => x7 (ix1 j)) (fun j : Fin 128 => x8 (ix1 j)) (i 1)

/-- The block index maps over the ten grid points: the two row windows and the output window move together, one block
    of 5000 rows per point; the four parameter windows stay at block 0. -/
theorem idx_facts : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0 ∧ win2_5.index t (0 : Fin 1) = 0
    ∧ win2_6.index t (0 : Fin 2) = t.val ∧ win2_6.index t (1 : Fin 2) = 0 :=
  (by decide +kernel : ∀ t : Fin grid2.N, _)

/-- Row `r`, lane `k` of the first row window's block at point `t` is the array's entry in the same row of the
    output's block. -/
theorem blk0_read (c : Dev nD) (t : Fin cfg2.N) (r : Fin 5000) (k : Fin 128) (i : S50000x128.Idx)
    (h0 : (i 0).val = win2_6.index t (0 : Fin 2) * 5000 + 1 * r.val) (h1 : (i 1).val = k.val) :
    iblk2 V c 0 t (ix2 r k) = V c main_v4_1 i := by
  obtain ⟨e0, e1, e2, e3, e4, e5, e6, e7, e8, e9, e10, e11⟩ := idx_facts t
  show V c main_v4_1 (((cfg2.win 0).blk t).view.emb (ix2 r k)) = V c main_v4_1 i
  refine congrArg _ (funext fun a => Fin.ext ?_)
  match a with
  | ⟨0, _⟩ => show win2_0.index t (0 : Fin 2) * 5000 + 1 * r.val = (i 0).val; omega
  | ⟨1, _⟩ => show win2_0.index t (1 : Fin 2) * 128 + 1 * k.val = (i 1).val; omega

/-- The same for the second row window. -/
theorem blk1_read (c : Dev nD) (t : Fin cfg2.N) (r : Fin 5000) (k : Fin 128) (i : S50000x128.Idx)
    (h0 : (i 0).val = win2_6.index t (0 : Fin 2) * 5000 + 1 * r.val) (h1 : (i 1).val = k.val) :
    iblk2 V c 1 t (ix2 r k) = V c main_v9 i := by
  obtain ⟨e0, e1, e2, e3, e4, e5, e6, e7, e8, e9, e10, e11⟩ := idx_facts t
  show V c main_v9 (((cfg2.win 1).blk t).view.emb (ix2 r k)) = V c main_v9 i
  refine congrArg _ (funext fun a => Fin.ext ?_)
  match a with
  | ⟨0, _⟩ => show win2_1.index t (0 : Fin 2) * 5000 + 1 * r.val = (i 0).val; omega
  | ⟨1, _⟩ => show win2_1.index t (1 : Fin 2) * 128 + 1 * k.val = (i 1).val; omega

/-- The first square matrix's window holds the whole matrix at every point. -/
theorem blk2_read (c : Dev nD) (t : Fin cfg2.N) (k j : Fin 128) :
    iblk2 V c 2 t (ix2 k j) = V c main_v10 (ix2 k j) := by
  obtain ⟨e0, e1, e2, e3, e4, e5, e6, e7, e8, e9, e10, e11⟩ := idx_facts t
  show V c main_v10 (((cfg2.win 2).blk t).view.emb (ix2 k j)) = V c main_v10 (ix2 k j)
  refine congrArg _ (funext fun a => Fin.ext ?_)
  match a with
  | ⟨0, _⟩ => show win2_2.index t (0 : Fin 2) * 128 + 1 * k.val = k.val; omega
  | ⟨1, _⟩ => show win2_2.index t (1 : Fin 2) * 128 + 1 * j.val = j.val; omega

/-- So does the second one's. -/
theorem blk3_read (c : Dev nD) (t : Fin cfg2.N) (k j : Fin 128) :
    iblk2 V c 3 t (ix2 k j) = V c main_v11 (ix2 k j) := by
  obtain ⟨e0, e1, e2, e3, e4, e5, e6, e7, e8, e9, e10, e11⟩ := idx_facts t
  show V c main_v11 (((cfg2.win 3).blk t).view.emb (ix2 k j)) = V c main_v11 (ix2 k j)
  refine congrArg _ (funext fun a => Fin.ext ?_)
  match a with
  | ⟨0, _⟩ => show win2_3.index t (0 : Fin 2) * 128 + 1 * k.val = k.val; omega
  | ⟨1, _⟩ => show win2_3.index t (1 : Fin 2) * 128 + 1 * j.val = j.val; omega

/-- The scale's window holds the whole vector at every point. -/
theorem blk4_read (c : Dev nD) (t : Fin cfg2.N) (j : Fin 128) :
    iblk2 V c 4 t (ix1 j) = V c main_arg7 (ix1 j) := by
  obtain ⟨e0, e1, e2, e3, e4, e5, e6, e7, e8, e9, e10, e11⟩ := idx_facts t
  show V c main_arg7 (((cfg2.win 4).blk t).view.emb (ix1 j)) = V c main_arg7 (ix1 j)
  refine congrArg _ (funext fun a => Fin.ext ?_)
  match a with
  | ⟨0, _⟩ => show win2_4.index t (0 : Fin 1) * 128 + 1 * j.val = j.val; omega

/-- So does the shift's. -/
theorem blk5_read (c : Dev nD) (t : Fin cfg2.N) (j : Fin 128) :
    iblk2 V c 5 t (ix1 j) = V c main_arg8 (ix1 j) := by
  obtain ⟨e0, e1, e2, e3, e4, e5, e6, e7, e8, e9, e10, e11⟩ := idx_facts t
  show V c main_arg8 (((cfg2.win 5).blk t).view.emb (ix1 j)) = V c main_arg8 (ix1 j)
  refine congrArg _ (funext fun a => Fin.ext ?_)
  match a with
  | ⟨0, _⟩ => show win2_5.index t (0 : Fin 1) * 128 + 1 * j.val = j.val; omega

/-- What point `t` writes back is block `t` of `rowsOut` of the arrays as the call finds them. -/
theorem flushed_eq (c : Dev nD) (t : Fin cfg2.N) :
    (dat2 V c).flushed 6 t = ((cfg2.win 6).blk t).view.read (Elt Ideal)
      (rowsOut (V c main_v4_1) (V c main_v9) (V c main_v10) (V c main_v11) (V c main_arg7) (V c main_arg8)) := by
  show (cfg2.win 6).cut (grid2.coords t) ((dat2 V c).after 6 t) = _
  rw [after2_6 V c t]
  unfold out2_6
  rw [View.canon_unit_zero hz]
  simp only [View.ld_unit_zero (S := S5000x128) hz, View.ld_unit_zero (S := S128x128) hz, View.ld_unit_zero (S := S128) hz1]
  obtain ⟨e0, e1, e2, e3, e4, e5, e6, e7, e8, e9, e10, e11⟩ := idx_facts t
  funext j
  refine (pay_idx _ _ _ _ _ _ ((cfg2.win 6).xinj (grid2.coords t) j)).trans ?_
  show _ = rowsOut (V c main_v4_1) (V c main_v9) (V c main_v10) (V c main_v11) (V c main_arg7) (V c main_arg8)
    (((cfg2.win 6).blk t).view.emb j)
  refine lnRow_congr4 (fun j' => ?_) (fun j' => blk4_read V c t j') (fun j' => blk5_read V c t j') ?_
  · refine congrArg₂ (· + ·) (Finset.sum_congr rfl fun k _ => congrArg₂ (· * ·) ?_ (blk2_read V c t k j'))
      (Finset.sum_congr rfl fun k _ => congrArg₂ (· * ·) ?_ (blk3_read V c t k j'))
    · exact blk0_read V c t _ k _ (by show win2_6.index t (0 : Fin 2) * 5000 + 1 * (j 0).val = win2_6.index t (0 : Fin 2) * 5000 + 1 * (j 0).val; rfl) rfl
    · exact blk1_read V c t _ k _ (by show win2_6.index t (0 : Fin 2) * 5000 + 1 * (j 0).val = win2_6.index t (0 : Fin 2) * 5000 + 1 * (j 0).val; rfl) rfl
  · refine Fin.ext ?_
    show (j 1).val = win2_6.index t (1 : Fin 2) * 128 + 1 * (j 1).val
    omega

/-- An index of the array is in point `t`'s block iff each coordinate is in the block's range on its axis. -/
theorem mem_blk (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v12).slice (win2_6.rect t)).set ↔ _
  rw [View.set_slice_whole, Rect.mem_set_unit]
  exact Iff.rfl

/-- Every row of the array is in the block of the point numbered by the row divided by 5000. -/
theorem covered (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨e0, e1, e2, e3, e4, e5, e6, e7, e8, e9, e10, e11⟩ := idx_facts t
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

end Region2

open Region2

/-- The third call's result: each node's combined row (`pc` into `w1` plus `mn` into `w2`), layer-normalised with
    scale `x7` and shift `x8`. -/
theorem final2_6 (c : Dev nD) (pc mn : S50000x128.Idx → EReal) (w1 w2 : S128x128.Idx → EReal) (x7 x8 : S128.Idx → EReal)
    (hpc : V c main_v4_1 = pc) (hmn : V c main_v9 = mn) (hw1 : V c main_v10 = w1) (hw2 : V c main_v11 = w2)
    (h7 : V c main_arg7 = x7) (h8 : V c main_arg8 = x8) :
    (dat2 V c).arrAt 6 cfg2.N = fun i : S50000x128.Idx =>
      Cert.Spec.lnRow
        (fun j : Fin 128 => (∑ k : Fin 128, pc (ix2 (i 0) k) * w1 (ix2 k j)) + ∑ k : Fin 128, mn (ix2 (i 0) k) * w2 (ix2 k j))
        (fun j : Fin 128 => x7 (ix1 j)) (fun j : Fin 128 => x8 (ix1 j)) (i 1) := by
  subst hpc hmn hw1 hw2 h7 h8
  exact (dat2 V c).arrAt_eq_of_cover 6
    (rowsOut (V c main_v4_1) (V c main_v9) (V c main_v10) (V c main_v11) (V c main_arg7) (V c main_arg8))
    (fun t _ => flushed_eq V c t) covered

end Cert.KernelIdeal.RegionValue

end
-- ==== Proof.RefValue.lean ====
/-
  The reference program read at an index.  Its result at node `r`, feature `j` is the layer normalisation of the row
  `cat(r, ·) · W`, where `cat` joins the centre projection (columns 0–127) and the summed messages (columns 128–255) and
  `W` has 256 rows: so the row's entry `j` is  Σ_{k<128} centre(r, k) · W(k, j) + Σ_{k<128} messages(r, k) · W(128 + k, j),
  a sum over 256 terms split at the joint.
-/
import proofs.«412064_j25177098289382_1_alg».proof.Proof.Gen.ReferenceIdeal.Read
import proofs.«412064_j25177098289382_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx Cert.Spec

/-- A sum over 256 terms is the sum over the first 128 plus the sum over the last 128. -/
theorem sum_split {M : Type} [AddCommMonoid M] (f : Fin 256 → M) :
    ∑ k : Fin 256, f k = ∑ k : Fin 128, f (lo k) + ∑ k : Fin 128, f (hi k) := by
  have h := Fin.sum_univ_add (fun k : Fin (128 + 128) => f k)
  have e1 : ∀ k : Fin 128, (Fin.castAdd 128 k : Fin (128 + 128)) = lo k := fun k => Fin.ext rfl
  have e2 : ∀ k : Fin 128, (Fin.natAdd 128 k : Fin (128 + 128)) = hi k := fun k => Fin.ext rfl
  simp only [e1, e2] at h
  exact h

/-- The joined array at a column of the first half reads the first piece at that column. -/
theorem cat_lo (a b : S50000x128.Idx → EReal) (r : Fin 50000) (k : Fin 128) :
    concatenate S50000x256 1 [⟨S50000x128, a⟩, ⟨S50000x128, b⟩] concatenates_S50000x128_S50000x128_S50000x256_d1
      (ix2 r (lo k)) = a (ix2 r k) :=
  concatenate_pair_apply_left 1 a b concatenates_S50000x128_S50000x128_S50000x256_d1 (ix2 r (lo k)) rfl (ix2 r k)
    (fun d => by match d with | ⟨0, _⟩ => rfl | ⟨1, _⟩ => rfl)

/-- The joined array at column `128 + k` reads the second piece at column `k`. -/
theorem cat_hi (a b : S50000x128.Idx → EReal) (r : Fin 50000) (k : Fin 128) :
    concatenate S50000x256 1 [⟨S50000x128, a⟩, ⟨S50000x128, b⟩] concatenates_S50000x128_S50000x128_S50000x256_d1
      (ix2 r (hi k)) = b (ix2 r k) :=
  concatenate_pair_apply_right 1 a b concatenates_S50000x128_S50000x128_S50000x256_d1 (ix2 r (hi k)) rfl rfl (ix2 r k)
    (fun d => by match d with | ⟨0, _⟩ => exact fun _ => rfl | ⟨1, _⟩ => exact fun h => absurd rfl h)
    (by show k.val + 128 = 128 + k.val; omega)

/-- The product of the joined row with the 256-row matrix, at node `r` and feature `j`: the sum over 256 columns
    split into the centre half and the message half. -/
theorem row_apply (x0 : S50000x128.Idx → EReal) (x1 : S800000x32.Idx → EReal) (x2 : IVec S2x800000 32)
    (x3 x4 : S128x128.Idx → EReal) (x5 : S256x128.Idx → EReal) (x6 : S32x128.Idx → EReal)
    (r : Fin 50000) (j : Fin 128) :
    val_main_v19 (F := Ideal) x0 x1 x2 x3 x4 x5 x6 (ix2 r j) =
      (∑ k : Fin 128, (val_main_v17 (F := Ideal) x0 x4 : S50000x128.Idx → EReal) (ix2 r k) * x5 (ix2 (lo k) j))
      + ∑ k : Fin 128, (val_main_v16 (F := Ideal) x0 x1 x2 x3 x6 : S50000x128.Idx → EReal) (ix2 r k) * x5 (ix2 (hi k) j) := by
  have el : ∀ k : Fin 256, lidx_main_v19 (ix2 r j) k = ix2 r k := fun k =>
    funext fun a => Fin.ext (by match a with | ⟨0, _⟩ => rfl | ⟨1, _⟩ => rfl)
  have er : ∀ k : Fin 256, ridx_main_v19 (ix2 r j) k = ix2 k j := fun k =>
    funext fun a => Fin.ext (by match a with | ⟨0, _⟩ => rfl | ⟨1, _⟩ => rfl)
  rw [val_main_v19_apply, sum_split]
  simp only [el, er]
  unfold val_main_v18
  simp only [cat_lo, cat_hi]

/-- The index of a one-column array at node `r`. -/
abbrev col (r : Fin 50000) : S50000x1.Idx := ix2 r (0 : Fin 1)

/-- The reference's result at node `r`, feature `j`: the layer normalisation of row `r` of the product of the joined
    array with the 256-row matrix. -/
theorem ref_normalised (x0 : S50000x128.Idx → EReal) (x1 : S800000x32.Idx → EReal) (x2 : IVec S2x800000 32)
    (x3 x4 : S128x128.Idx → EReal) (x5 : S256x128.Idx → EReal) (x6 : S32x128.Idx → EReal) (x7 x8 : S128.Idx → EReal)
    (r : Fin 50000) (j : Fin 128) :
    val_main_v43 (F := Ideal) x0 x1 x2 x3 x4 x5 x6 x7 x8 (ix2 r j) =
      lnRow
        (fun j : Fin 128 => val_main_v19 (F := Ideal) x0 x1 x2 x3 x4 x5 x6 (ix2 r j))
        (fun j : Fin 128 => x7 (ix1 j)) (fun j : Fin 128 => x8 (ix1 j)) j := by
  have e42 : idx_main_v41 (idx_main_v42 (ix2 r j)) = ix1 j :=
    funext fun a => Fin.ext (by match a with | ⟨0, _⟩ => rfl)
  have e39 : idx_main_v38 (idx_main_v39 (ix2 r j)) = ix1 j :=
    funext fun a => Fin.ext (by match a with | ⟨0, _⟩ => rfl)
  have e36 : idx_main_v36 (ix2 r j) = col r :=
    funext fun a => Fin.ext (by match a with | ⟨0, _⟩ => rfl | ⟨1, _⟩ => rfl)
  have e31 : idx_main_v31 (ix2 r j) = col r :=
    funext fun a => Fin.ext (by match a with | ⟨0, _⟩ => rfl | ⟨1, _⟩ => rfl)
  have e24 : ∀ k : Fin 128, idx_main_v24 (ix2 r k) = col r := fun k =>
    funext fun a => Fin.ext (by match a with | ⟨0, _⟩ => rfl | ⟨1, _⟩ => rfl)
  have e28 : idx_main_v28 (col r) = ix1 r :=
    funext fun a => Fin.ext (by match a with | ⟨0, _⟩ => rfl)
  have e21 : idx_main_v21 (col r) = ix1 r :=
    funext fun a => Fin.ext (by match a with | ⟨0, _⟩ => rfl)
  have e27 : ∀ k : Fin 128, idx_main_v27 (ix1 r) k = ix2 r k := fun k =>
    funext fun a => Fin.ext (by match a with | ⟨0, _⟩ => rfl | ⟨1, _⟩ => rfl)
  have e20 : ∀ k : Fin 128, idx_main_v20 (ix1 r) k = ix2 r k := fun k =>
    funext fun a => Fin.ext (by match a with | ⟨0, _⟩ => rfl | ⟨1, _⟩ => rfl)
  have hmean : val_main_v23 (F := Ideal) x0 x1 x2 x3 x4 x5 x6 (col r)
      = rowMean (fun k : Fin 128 => val_main_v19 (F := Ideal) x0 x1 x2 x3 x4 x5 x6 (ix2 r k)) := by
    rw [val_main_v23_apply, val_main_v22_apply, val_main_cst_2_apply, val_main_v21_apply, e21, val_main_v20_apply,
      val_main_cst_1_apply]
    simp only [e20, Ideal.ofBits_def, Ideal.hostDivf_def, Ideal.ofBits_zero_f32, zero_add]
    rfl
  have hdev : ∀ k : Fin 128, val_main_v26 (F := Ideal) x0 x1 x2 x3 x4 x5 x6 (idx_main_v27 (ix1 r) k)
      = (val_main_v19 (F := Ideal) x0 x1 x2 x3 x4 x5 x6 (ix2 r k)
          - rowMean (fun k : Fin 128 => val_main_v19 (F := Ideal) x0 x1 x2 x3 x4 x5 x6 (ix2 r k)))
        * (val_main_v19 (F := Ideal) x0 x1 x2 x3 x4 x5 x6 (ix2 r k)
          - rowMean (fun k : Fin 128 => val_main_v19 (F := Ideal) x0 x1 x2 x3 x4 x5 x6 (ix2 r k))) := by
    intro k
    rw [e27, val_main_v26_apply, val_main_v25_apply, val_main_v24_apply, e24, hmean]
    rfl
  rw [val_main_v43_apply, val_main_v40_apply, val_main_v42_apply, val_main_v41_apply, val_main_v39_apply, val_main_v38_apply,
    val_main_v37_apply, val_main_v36_apply, val_main_v35_apply, val_main_v34_apply, val_main_v33_apply, val_main_cst_5_apply,
    val_main_v32_apply, val_main_v31_apply, val_main_v30_apply, val_main_v29_apply, val_main_cst_4_apply, val_main_v28_apply,
    e42, e39, e36, e31, e28, val_main_v27_apply, val_main_cst_3_apply, hmean]
  simp only [hdev, Ideal.ofBits_def, Ideal.addf_def, Ideal.subf_def, Ideal.mulf_def, Ideal.hostDivf_def,
    Ideal.hostUnary_rsqrt_def, Ideal.ofBits_zero_f32, zero_add]
  rfl

/-- The reference's result at an index: the layer normalisation of the joined row times the 256-row weight matrix,
    the sum over 256 split into the centre half and the message half. -/
theorem ref_apply (x0 : S50000x128.Idx → EReal) (x1 : S800000x32.Idx → EReal) (x2 : IVec S2x800000 32)
    (x3 x4 : S128x128.Idx → EReal) (x5 : S256x128.Idx → EReal) (x6 : S32x128.Idx → EReal) (x7 x8 : S128.Idx → EReal)
    (i : S50000x128.Idx) :
    val_main_v43 (F := Ideal) x0 x1 x2 x3 x4 x5 x6 x7 x8 i =
      lnRow
        (fun j : Fin 128 =>
          (∑ k : Fin 128, (val_main_v17 (F := Ideal) x0 x4 : S50000x128.Idx → EReal) (ix2 (i 0) k) * x5 (ix2 (lo k) j))
          + ∑ k : Fin 128, (val_main_v16 (F := Ideal) x0 x1 x2 x3 x6 : S50000x128.Idx → EReal) (ix2 (i 0) k) * x5 (ix2 (hi k) j))
        (fun j : Fin 128 => x7 (ix1 j)) (fun j : Fin 128 => x8 (ix1 j)) (i 1) := by
  refine ((congrArg (val_main_v43 (F := Ideal) x0 x1 x2 x3 x4 x5 x6 x7 x8) (eq_ix2 i)).trans
    (ref_normalised x0 x1 x2 x3 x4 x5 x6 x7 x8 (i 0) (i 1))).trans ?_
  exact lnRow_congr (fun k => row_apply x0 x1 x2 x3 x4 x5 x6 (i 0) k) _ _ _

end Cert.ReferenceIdeal.RefValue

end
-- ==== Proof.Bridge.lean ====
/-
  The kernel program's result is the reference's function of the arguments.
  Stage by stage: the two node projections are the reference's two matrix products; with every neighbour index in
  −50000 … 49999 the guarded gather is the reference's plain gather; the messages are the reference's product of gathered rows
  and projected edge features; their sum per centre node is the same scatter-sum; and the last call's row
  centre(r, ·)·W₁ + messages(r, ·)·W₂, with W₁ and W₂ the upper and lower halves of the 256-row matrix, is the reference's
  row of the joined 256 columns times that matrix; both are then layer-normalised by the same formula.
-/
import proofs.«412064_j25177098289382_1_alg».proof.Proof.HostValues
import proofs.«412064_j25177098289382_1_alg».proof.Proof.Region2
import proofs.«412064_j25177098289382_1_alg».proof.Proof.RefValue
import proofs.«412064_j25177098289382_1_alg».proof.Proof.Pre
import proofs.«412064_j25177098289382_1_alg».proof.Defs

set_option maxRecDepth 16384

noncomputable section

namespace Cert.Bridge

open Cert.KernelIdeal Cert.KernelIdeal.Gen Cert.KernelIdeal.HostValue Cert.KernelIdeal.Take Cert.KernelIdeal.RegionValue
open Idealize.ShloMosaic Idealize.ShloMosaic.TcCoe Idealize.SL.Sem
open Idealize.ShloMosaic.ValueIdx Cert.Spec
open Cert.ReferenceIdeal.Read (val_main_v3 val_main_v1 val_main_v4 val_main_v9 val_main_v10 val_main_v11 val_main_v12 val_main_v13 val_main_v14 val_main_v15 val_main_v16 val_main_v17 val_main_v43)

variable (m : (ℓ : Loc nD τ sig) → Buf (Elt Ideal) ℓ) (ρ : Dev nD → PrngReg) (c : Dev nD)

/-! ## Leaving the third call -/

/-- The result array. -/
theorem W6_v12 (pc mn : S50000x128.Idx → EReal) (w1 w2 : S128x128.Idx → EReal)
    (hpc : W5 m ρ c (Proc.devRef .tc main_v4_1) = pc) (hmn : W5 m ρ c (Proc.devRef .tc main_v9) = mn)
    (hw1 : W5 m ρ c (Proc.devRef .tc main_v10) = w1) (hw2 : W5 m ρ c (Proc.devRef .tc main_v11) = w2) :
    W6 m ρ c (Proc.devRef .tc main_v12) = fun i : S50000x128.Idx =>
      Cert.Spec.lnRow
        (fun j : Fin 128 => (∑ k : Fin 128, pc (ix2 (i 0) k) * w1 (ix2 k j)) + ∑ k : Fin 128, mn (ix2 (i 0) k) * w2 (ix2 k j))
        (fun j : Fin 128 => arg7 m c (ix1 j))
        (fun j : Fin 128 => arg8 m c (ix1 j)) (i 1) :=
  (W6_arr m ρ c 6).trans (final2_6 (V5 m ρ) c pc mn w1 w2 _ _ hpc hmn hw1 hw2 (W5_arg7 m ρ c) (W5_arg8 m ρ c))

/-! ## The matrix products -/

/-- A 128-term matrix product read entry by entry is the reference's first product. -/
theorem prod_v4 (x0 : S50000x128.Idx → EReal) (x3 : S128x128.Idx → EReal) :
    (fun i : S50000x128.Idx => ∑ k : Fin 128, x0 (ix2 (i 0) k) * x3 (ix2 k (i 1))) = val_main_v4 (F := Ideal) x0 x3 := by
  funext i
  rw [Cert.ReferenceIdeal.Read.val_main_v4_apply]
  refine Finset.sum_congr rfl fun k _ => ?_
  have el : Cert.ReferenceIdeal.Read.lidx_main_v4 i k = ix2 (i 0) k :=
    funext fun a => Fin.ext (by match a with | ⟨0, _⟩ => rfl | ⟨1, _⟩ => rfl)
  have er : Cert.ReferenceIdeal.Read.ridx_main_v4 i k = ix2 k (i 1) :=
    funext fun a => Fin.ext (by match a with | ⟨0, _⟩ => rfl | ⟨1, _⟩ => rfl)
  rw [el, er]
  rfl

/-- The same for the centre projection. -/
theorem prod_v17 (x0 : S50000x128.Idx → EReal) (x4 : S128x128.Idx → EReal) :
    (fun i : S50000x128.Idx => ∑ k : Fin 128, x0 (ix2 (i 0) k) * x4 (ix2 k (i 1))) = val_main_v17 (F := Ideal) x0 x4 := by
  funext i
  rw [Cert.ReferenceIdeal.Read.val_main_v17_apply]
  refine Finset.sum_congr rfl fun k _ => ?_
  have el : Cert.ReferenceIdeal.Read.lidx_main_v17 i k = ix2 (i 0) k :=
    funext fun a => Fin.ext (by match a with | ⟨0, _⟩ => rfl | ⟨1, _⟩ => rfl)
  have er : Cert.ReferenceIdeal.Read.ridx_main_v17 i k = ix2 k (i 1) :=
    funext fun a => Fin.ext (by match a with | ⟨0, _⟩ => rfl | ⟨1, _⟩ => rfl)
  rw [el, er]
  rfl

/-- The projected edge features. -/
theorem prod_v12 (x1 : S800000x32.Idx → EReal) (x6 : S32x128.Idx → EReal) (i : S800000x128.Idx) :
    (∑ k : Fin 32, x1 (ix2 (i 0) k) * x6 (ix2 k (i 1))) = val_main_v12 (F := Ideal) x1 x6 i := by
  rw [Cert.ReferenceIdeal.Read.val_main_v12_apply]
  refine Finset.sum_congr rfl fun k _ => ?_
  have el : Cert.ReferenceIdeal.Read.lidx_main_v12 i k = ix2 (i 0) k :=
    funext fun a => Fin.ext (by match a with | ⟨0, _⟩ => rfl | ⟨1, _⟩ => rfl)
  have er : Cert.ReferenceIdeal.Read.ridx_main_v12 i k = ix2 k (i 1) :=
    funext fun a => Fin.ext (by match a with | ⟨0, _⟩ => rfl | ⟨1, _⟩ => rfl)
  rw [el, er]
  rfl

/-! ## The halves of the 256-row matrix -/

theorem upper_half (x5 : S256x128.Idx → EReal) :
    extractStridedSlice S128x128 ![0, 0] x5 slices_S256x128_S128x128_0_0 = fun i : S128x128.Idx => x5 (ix2 (lo (i 0)) (i 1)) := by
  funext i
  exact extractStridedSlice_apply ![0, 0] x5 slices_S256x128_S128x128_0_0 i (ix2 (lo (i 0)) (i 1)) (fun a => match a with
    | ⟨0, _⟩ => by show (i 0).val = 0 + (i 0).val; omega
    | ⟨1, _⟩ => by show (i 1).val = 0 + (i 1).val; omega)

theorem lower_half (x5 : S256x128.Idx → EReal) :
    extractStridedSlice S128x128 ![128, 0] x5 slices_S256x128_S128x128_128_0 = fun i : S128x128.Idx => x5 (ix2 (hi (i 0)) (i 1)) := by
  funext i
  exact extractStridedSlice_apply ![128, 0] x5 slices_S256x128_S128x128_128_0 i (ix2 (hi (i 0)) (i 1)) (fun a => match a with
    | ⟨0, _⟩ => by show 128 + (i 0).val = 128 + (i 0).val; omega
    | ⟨1, _⟩ => by show (i 1).val = 0 + (i 1).val; omega)

/-! ## The stages -/

/-- The precondition, read at core `c`: every neighbour index lies in −50000 … 49999. -/
theorem neigh_ok [hP : Cert.Pre_finite_inputs.Facts] (hpre : Cert.Pre_KernelIdeal m) (e : S800000.Idx) :
    IntOp.cmpi .sge (row1 (arg2 m c) e) 4294917296#32 = 1#1 ∧ IntOp.cmpi .slt (row1 (arg2 m c) e) 50000#32 = 1#1 :=
  Cert.PreRead.neigh_range _ _ _ _ _ _ _ _ _ (hpre c) e

/-- The gathered neighbour rows are the reference's. -/
theorem stage_v5 [hP : Cert.Pre_finite_inputs.Facts] (hpre : Cert.Pre_KernelIdeal m) :
    W3 m ρ c (Proc.devRef .tc main_v5) = val_main_v11 (F := Ideal) (arg0 m c) (arg2 m c) (arg3 m c) := by
  rw [W3_v5, W2_v4_0, W2_keep m ρ c main_v3 (by decide) (W1_v3 m ρ c), prod_v4,
    takeFill_eq_gather _ _ (neigh_ok m c hpre)]
  rfl

/-- The messages are the reference's. -/
theorem stage_v6 [hP : Cert.Pre_finite_inputs.Facts] (hpre : Cert.Pre_KernelIdeal m) :
    W4 m ρ c (Proc.devRef .tc main_v6) = val_main_v13 (F := Ideal) (arg0 m c) (arg1 m c) (arg2 m c) (arg3 m c) (arg6 m c) := by
  rw [W4_v6 m ρ c _ (stage_v5 m ρ c hpre)]
  funext i
  rw [prod_v12]
  rfl

/-- The summed messages are the reference's. -/
theorem stage_v9 [hP : Cert.Pre_finite_inputs.Facts] (hpre : Cert.Pre_KernelIdeal m) :
    W5 m ρ c (Proc.devRef .tc main_v9) = val_main_v16 (F := Ideal) (arg0 m c) (arg1 m c) (arg2 m c) (arg3 m c) (arg6 m c) := by
  rw [W5_v9, W4_v1, stage_v6 m ρ c hpre]
  rfl

/-- The result array is the reference's function of the arguments. -/
theorem kernel_value [hP : Cert.Pre_finite_inputs.Facts] (hpre : Cert.Pre_KernelIdeal m) :
    W6 m ρ c (Proc.devRef .tc main_v12) = val_main_v43 (F := Ideal) (arg0 m c) (arg1 m c) (arg2 m c) (arg3 m c) (arg4 m c) (arg5 m c) (arg6 m c) (arg7 m c) (arg8 m c) := by
  rw [W6_v12 m ρ c _ _ _ _ (W5_v4_1 m ρ c ((W2_v4_1 m ρ c).trans (prod_v17 _ _))) (stage_v9 m ρ c hpre)
    ((W5_v10 m ρ c).trans ((congrArg (fun y => extractStridedSlice S128x128 ![0, 0] y slices_S256x128_S128x128_0_0) (W4_arg5 m ρ c)).trans (upper_half _)))
    ((W5_v11 m ρ c).trans ((congrArg (fun y => extractStridedSlice S128x128 ![128, 0] y slices_S256x128_S128x128_128_0) (W4_arg5 m ρ c)).trans (lower_half _)))]
  funext i
  rw [Cert.ReferenceIdeal.RefValue.ref_apply]

end Cert.Bridge

end
-- ==== Proof.lean ====
/-
  The kernel passes messages along the edges of a graph: it projects the 50000 node rows by two 128×128 matrices, gathers the
  first projection's rows at each edge's neighbour index, multiplies each gathered row entry by entry with the edge's projected
  radial features, sums these messages into each edge's centre node, and layer-normalises the row
  centre·W₁ + messages·W₂ of every node, W₁ and W₂ being the two halves of a 256-row matrix.  The reference computes the same
  with whole-array operations: one product of the joined 256 columns with the 256-row matrix in place of the two half products
  (the same sum of 256 terms, split at the joint), and a gather with no range guard where the kernel fills a row whose
  neighbour index is out of range with the not-a-number word.  Where every neighbour index lies in −50000 … 49999 (the added
  conjunct of the precondition: the range in which the reference's own indexing is defined) the guard never fires, and the two
  results are equal entry by entry over the extended reals; no finiteness of the float inputs is used, since only
  commutativity and associativity of sums and the same operations on both sides are needed.
  The three frames: the two kernel programs' by the generated frame certificates, the reference's by its generated run.
  The idealization rewrote no operation, so its claim is trivial.
-/
import proofs.«412064_j25177098289382_1_alg».proof.Defs
import proofs.«412064_j25177098289382_1_alg».proof.Proof.Gen.Kernel
import proofs.«412064_j25177098289382_1_alg».proof.Proof.Gen.Kernel.Skeleton
import proofs.«412064_j25177098289382_1_alg».proof.Proof.Gen.Kernel.Launch
import proofs.«412064_j25177098289382_1_alg».proof.Proof.Gen.Kernel.Points
import proofs.«412064_j25177098289382_1_alg».proof.Proof.Gen.Kernel.Frame
import proofs.«412064_j25177098289382_1_alg».proof.Proof.Gen.KernelIdeal
import proofs.«412064_j25177098289382_1_alg».proof.Proof.Gen.KernelIdeal.Skeleton
import proofs.«412064_j25177098289382_1_alg».proof.Proof.Gen.KernelIdeal.Launch
import proofs.«412064_j25177098289382_1_alg».proof.Proof.Gen.KernelIdeal.Points
import proofs.«412064_j25177098289382_1_alg».proof.Proof.Gen.KernelIdeal.Frame
import proofs.«412064_j25177098289382_1_alg».proof.Proof.Gen.ReferenceIdeal
import proofs.«412064_j25177098289382_1_alg».proof.Proof.Gen.ReferenceIdeal.Run
import proofs.«412064_j25177098289382_1_alg».proof.Proof.Gen.ReferenceIdeal.Read
import proofs.«412064_j25177098289382_1_alg».proof.Proof.Gen.Pre_finite_inputs
import proofs.«412064_j25177098289382_1_alg».proof.Proof.KernelRun
import proofs.«412064_j25177098289382_1_alg».proof.Proof.Bridge
import Idealize.ShloMosaic.Adequacy
import Idealize.ShloMosaic.Init

noncomputable section

namespace Cert.Proof

open Idealize.ShloMosaic Idealize.SL.Sem Cert.Kernel

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the reference's function of the kernel's argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.Read.val_main_v43 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.Bridge.kernel_value (hP := Cert.Pre_finite_inputs.Gen.facts) m ρ c hpre), (h c).2⟩)
      (Cert.KernelIdeal.Run.run_main (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v43_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
